-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : FVec F S131072 .f32) (main_arg5 : FVec F S131072 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S131072 .f32 := Host.absf main_arg5
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  main_v28

def fn {F : FTy → Type} [FloatOps F] (main_arg0 : FVec F S2x2048x2048 .f32) (main_arg1 : FVec F S8192x2048 .f32) (main_arg2 : FVec F S8192 .f32) (main_arg3 : FVec F S8192x2048 .f32) (main_arg4 : FVec F S131072 .f32) (main_arg5 : FVec F S131072 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S8192x16 : Shape := ⟨2, ![8192, 16]⟩
abbrev S512x2048 : Shape := ⟨2, ![512, 2048]⟩
abbrev S512x16 : Shape := ⟨2, ![512, 16]⟩
abbrev S512x128 : Shape := ⟨2, ![512, 128]⟩
abbrev S512x1 : Shape := ⟨2, ![512, 1]⟩
abbrev S512 : Shape := ⟨1, ![512]⟩
abbrev S4096x2048 : Shape := ⟨2, ![4096, 2048]⟩
abbrev S1x8192 : Shape := ⟨2, ![1, 8192]⟩
abbrev S4096x8192 : Shape := ⟨2, ![4096, 8192]⟩
abbrev S2048x2048 : Shape := ⟨2, ![2048, 2048]⟩
abbrev S1x2048 : Shape := ⟨2, ![1, 2048]⟩
abbrev S2x2048x8192 : Shape := ⟨3, ![2, 2048, 8192]⟩

abbrev nBuf : Space → Nat
  | .hbm => 13
  | .vmem => 18
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S131072, .f32⟩
  | .hbm, ⟨5, _⟩ => ⟨S131072, .f32⟩
  | .hbm, ⟨6, _⟩ => ⟨S8192x16, .f32⟩
  | .hbm, ⟨7, _⟩ => ⟨S8192x16, .f32⟩
  | .hbm, ⟨8, _⟩ => ⟨S8192x2048, .bf16⟩
  | .hbm, ⟨9, _⟩ => ⟨S4096x2048, .f32⟩
  | .hbm, ⟨10, _⟩ => ⟨S1x8192, .f32⟩
  | .hbm, ⟨11, _⟩ => ⟨S4096x8192, .f32⟩
  | .hbm, ⟨12, _⟩ => ⟨S2x2048x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S2048x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S131072_S8192x16 : S131072.ShapeCasts S8192x16
  inb_S512x2048_S512x128_0_0 : ∀ a, (![0, 0] : Fin 2 → Nat) a + S512x128.size a ≤ S512x2048.size a
  h_S512x128 : 0 < S512x128.numel
  inb_S512x16_S512x1_0_0 : ∀ a, (![0, 0] : Fin 2 → Nat) a + S512x1.size a ≤ S512x16.size a
  h_S512x1 : 0 < S512x1.numel
  shapeCasts_S512x1_S512x1 : S512x1.ShapeCasts S512x1
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  packedbf16_S512x2048_S512x128_0_0 : (Rect.unit (s := S512x2048) ![0, 0] S512x128.size inb_S512x2048_S512x128_0_0).PackedRows (EltTy.packing .bf16)
  inb_S512x2048_S512x128_0_128 : ∀ a, (![0, 128] : Fin 2 → Nat) a + S512x128.size a ≤ S512x2048.size a
  inb_S512x16_S512x1_0_1 : ∀ a, (![0, 1] : Fin 2 → Nat) a + S512x1.size a ≤ S512x16.size a
  packedbf16_S512x2048_S512x128_0_128 : (Rect.unit (s := S512x2048) ![0, 128] S512x128.size inb_S512x2048_S512x128_0_128).PackedRows (EltTy.packing .bf16)
  inb_S512x2048_S512x128_0_256 : ∀ a, (![0, 256] : Fin 2 → Nat) a + S512x128.size a ≤ S512x2048.size a
  inb_S512x16_S512x1_0_2 : ∀ a, (![0, 2] : Fin 2 → Nat) a + S512x1.size a ≤ S512x16.size a
  packedbf16_S512x2048_S512x128_0_256 : (Rect.unit (s := S512x2048) ![0, 256] S512x128.size inb_S512x2048_S512x128_0_256).PackedRows (EltTy.packing .bf16)
  inb_S512x2048_S512x128_0_384 : ∀ a, (![0, 384] : Fin 2 → Nat) a + S512x128.size a ≤ S512x2048.size a
  inb_S512x16_S512x1_0_3 : ∀ a, (![0, 3] : Fin 2 → Nat) a + S512x1.size a ≤ S512x16.size a
  packedbf16_S512x2048_S512x128_0_384 : (Rect.unit (s := S512x2048) ![0, 384] S512x128.size inb_S512x2048_S512x128_0_384).PackedRows (EltTy.packing .bf16)
  inb_S512x2048_S512x128_0_512 : ∀ a, (![0, 512] : Fin 2 → Nat) a + S512x128.size a ≤ S512x2048.size a
  inb_S512x16_S512x1_0_4 : ∀ a, (![0, 4] : Fin 2 → Nat) a + S512x1.size a ≤ S512x16.size a
  packedbf16_S512x2048_S512x128_0_512 : (Rect.unit (s := S512x2048) ![0, 512] S512x128.size inb_S512x2048_S512x128_0_512).PackedRows (EltTy.packing .bf16)
  inb_S512x2048_S512x128_0_640 : ∀ a, (![0, 640] : Fin 2 → Nat) a + S512x128.size a ≤ S512x2048.size a
  inb_S512x16_S512x1_0_5 : ∀ a, (![0, 5] : Fin 2 → Nat) a + S512x1.size a ≤ S512x16.size a
  packedbf16_S512x2048_S512x128_0_640 : (Rect.unit (s := S512x2048) ![0, 640] S512x128.size inb_S512x2048_S512x128_0_640).PackedRows (EltTy.packing .bf16)
  inb_S512x2048_S512x128_0_768 : ∀ a, (![0, 768] : Fin 2 → Nat) a + S512x128.size a ≤ S512x2048.size a
  inb_S512x16_S512x1_0_6 : ∀ a, (![0, 6] : Fin 2 → Nat) a + S512x1.size a ≤ S512x16.size a
  packedbf16_S512x2048_S512x128_0_768 : (Rect.unit (s := S512x2048) ![0, 768] S512x128.size inb_S512x2048_S512x128_0_768).PackedRows (EltTy.packing .bf16)
  inb_S512x2048_S512x128_0_896 : ∀ a, (![0, 896] : Fin 2 → Nat) a + S512x128.size a ≤ S512x2048.size a
  inb_S512x16_S512x1_0_7 : ∀ a, (![0, 7] : Fin 2 → Nat) a + S512x1.size a ≤ S512x16.size a
  packedbf16_S512x2048_S512x128_0_896 : (Rect.unit (s := S512x2048) ![0, 896] S512x128.size inb_S512x2048_S512x128_0_896).PackedRows (EltTy.packing .bf16)
  inb_S512x2048_S512x128_0_1024 : ∀ a, (![0, 1024] : Fin 2 → Nat) a + S512x128.size a ≤ S512x2048.size a
  inb_S512x16_S512x1_0_8 : ∀ a, (![0, 8] : Fin 2 → Nat) a + S512x1.size a ≤ S512x16.size a
  packedbf16_S512x2048_S512x128_0_1024 : (Rect.unit (s := S512x2048) ![0, 1024] S512x128.size inb_S512x2048_S512x128_0_1024).PackedRows (EltTy.packing .bf16)
  inb_S512x2048_S512x128_0_1152 : ∀ a, (![0, 1152] : Fin 2 → Nat) a + S512x128.size a ≤ S512x2048.size a
  inb_S512x16_S512x1_0_9 : ∀ a, (![0, 9] : Fin 2 → Nat) a + S512x1.size a ≤ S512x16.size a
  packedbf16_S512x2048_S512x128_0_1152 : (Rect.unit (s := S512x2048) ![0, 1152] S512x128.size inb_S512x2048_S512x128_0_1152).PackedRows (EltTy.packing .bf16)
  inb_S512x2048_S512x128_0_1280 : ∀ a, (![0, 1280] : Fin 2 → Nat) a + S512x128.size a ≤ S512x2048.size a
  inb_S512x16_S512x1_0_10 : ∀ a, (![0, 10] : Fin 2 → Nat) a + S512x1.size a ≤ S512x16.size a
  packedbf16_S512x2048_S512x128_0_1280 : (Rect.unit (s := S512x2048) ![0, 1280] S512x128.size inb_S512x2048_S512x128_0_1280).PackedRows (EltTy.packing .bf16)
  inb_S512x2048_S512x128_0_1408 : ∀ a, (![0, 1408] : Fin 2 → Nat) a + S512x128.size a ≤ S512x2048.size a
  inb_S512x16_S512x1_0_11 : ∀ a, (![0, 11] : Fin 2 → Nat) a + S512x1.size a ≤ S512x16.size a
  packedbf16_S512x2048_S512x128_0_1408 : (Rect.unit (s := S512x2048) ![0, 1408] S512x128.size inb_S512x2048_S512x128_0_1408).PackedRows (EltTy.packing .bf16)
  inb_S512x2048_S512x128_0_1536 : ∀ a, (![0, 1536] : Fin 2 → Nat) a + S512x128.size a ≤ S512x2048.size a
  inb_S512x16_S512x1_0_12 : ∀ a, (![0, 12] : Fin 2 → Nat) a + S512x1.size a ≤ S512x16.size a
  packedbf16_S512x2048_S512x128_0_1536 : (Rect.unit (s := S512x2048) ![0, 1536] S512x128.size inb_S512x2048_S512x128_0_1536).PackedRows (EltTy.packing .bf16)
  inb_S512x2048_S512x128_0_1664 : ∀ a, (![0, 1664] : Fin 2 → Nat) a + S512x128.size a ≤ S512x2048.size a
  inb_S512x16_S512x1_0_13 : ∀ a, (![0, 13] : Fin 2 → Nat) a + S512x1.size a ≤ S512x16.size a
  packedbf16_S512x2048_S512x128_0_1664 : (Rect.unit (s := S512x2048) ![0, 1664] S512x128.size inb_S512x2048_S512x128_0_1664).PackedRows (EltTy.packing .bf16)
  inb_S512x2048_S512x128_0_1792 : ∀ a, (![0, 1792] : Fin 2 → Nat) a + S512x128.size a ≤ S512x2048.size a
  inb_S512x16_S512x1_0_14 : ∀ a, (![0, 14] : Fin 2 → Nat) a + S512x1.size a ≤ S512x16.size a
  packedbf16_S512x2048_S512x128_0_1792 : (Rect.unit (s := S512x2048) ![0, 1792] S512x128.size inb_S512x2048_S512x128_0_1792).PackedRows (EltTy.packing .bf16)
  inb_S512x2048_S512x128_0_1920 : ∀ a, (![0, 1920] : Fin 2 → Nat) a + S512x128.size a ≤ S512x2048.size a
  inb_S512x16_S512x1_0_15 : ∀ a, (![0, 15] : Fin 2 → Nat) a + S512x1.size a ≤ S512x16.size a
  packedbf16_S512x2048_S512x128_0_1920 : (Rect.unit (s := S512x2048) ![0, 1920] S512x128.size inb_S512x2048_S512x128_0_1920).PackedRows (EltTy.packing .bf16)
  shapeCasts_S2x2048x2048_S4096x2048 : S2x2048x2048.ShapeCasts S4096x2048
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x8192_S2x2048x8192 : S4096x8192.ShapeCasts S2x2048x8192
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S8192x16.size a
  hwx0_2 : ∀ i : grid0.Coords, EltTy.bits .f32 = 32 ∨ (Rect.block (s := S8192x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .bf16 = 32 ∨ (Rect.block (s := S8192x2048) S512x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x2048.size a
  hwx1_1 : ∀ i : grid1.Coords, EltTy.bits .bf16 = 32 ∨ (Rect.block (s := S8192x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x8192.size a
  hwx1_3 : ∀ i : grid1.Coords, EltTy.bits .f32 = 32 ∨ (Rect.block (s := S4096x8192) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S8192 : Shape := ⟨1, ![8192]⟩
abbrev S131072 : Shape := ⟨1, ![131072]⟩
abbrev S_ : Shape := ⟨0, ![]⟩
abbrev S131072x128 : Shape := ⟨2, ![131072, 128]⟩
abbrev S131072x1 : Shape := ⟨2, ![131072, 1]⟩
abbrev S4096x2048 : Shape := ⟨2, ![4096, 2048]⟩
abbrev S2048x8192 : Shape := ⟨2, ![2048, 8192]⟩
abbrev S4096x8192 : Shape := ⟨2, ![4096, 8192]⟩
abbrev S1x8192 : Shape := ⟨2, ![1, 8192]⟩
abbrev S2x2048x8192 : Shape := ⟨3, ![2, 2048, 8192]⟩

abbrev nBuf : Space → Nat
  | .hbm => 102
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192, .f32⟩
  | .hbm, ⟨3, _⟩ => ⟨S8192x2048, .f32⟩
  | .hbm, ⟨4, _⟩ => ⟨S131072, .f32⟩
  | .hbm, ⟨5, _⟩ => ⟨S131072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S131072, .f32⟩
  | .hbm, ⟨15, _⟩ => ⟨S131072, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072, .f32⟩
  | .hbm, ⟨25, _⟩ => ⟨S131072, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072, .f32⟩
  | .hbm, ⟨30, _⟩ => ⟨S_, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S_, .f32⟩
  | .hbm, ⟨47, _⟩ => ⟨S131072, .f32⟩
  | .hbm, ⟨48, _⟩ => ⟨S131072, .i1⟩
  | .hbm, ⟨49, _⟩ => ⟨S_, .f32⟩
  | .hbm, ⟨50, _⟩ => ⟨S131072, .f32⟩
  | .hbm, ⟨51, _⟩ => ⟨S131072, .i1⟩
  | .hbm, ⟨52, _⟩ => ⟨S131072, .i1⟩
  | .hbm, ⟨53, _⟩ => ⟨S_, .f32⟩
  | .hbm, ⟨54, _⟩ => ⟨S_, .f32⟩
  | .hbm, ⟨55, _⟩ => ⟨S131072, .f32⟩
  | .hbm, ⟨56, _⟩ => ⟨S131072, .f32⟩
  | .hbm, ⟨57, _⟩ => ⟨S_, .f32⟩
  | .hbm, ⟨58, _⟩ => ⟨S_, .f32⟩
  | .hbm, ⟨59, _⟩ => ⟨S131072, .f32⟩
  | .hbm, ⟨60, _⟩ => ⟨S131072, .f32⟩
  | .hbm, ⟨61, _⟩ => ⟨S131072, .f32⟩
  | .hbm, ⟨62, _⟩ => ⟨S_, .f32⟩
  | .hbm, ⟨63, _⟩ => ⟨S131072, .f32⟩
  | .hbm, ⟨64, _⟩ => ⟨S131072, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S131072, .f32⟩
  | .hbm, ⟨69, _⟩ => ⟨S131072, .f32⟩
  | .hbm, ⟨70, _⟩ => ⟨S131072x1, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x1, .f32⟩
  | .hbm, ⟨78, _⟩ => ⟨S131072x128, .f32⟩
  | .hbm, ⟨79, _⟩ => ⟨S131072x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S131072x128, .f32⟩
  | .hbm, ⟨84, _⟩ => ⟨S131072x128, .f32⟩
  | .hbm, ⟨85, _⟩ => ⟨S_, .f32⟩
  | .hbm, ⟨86, _⟩ => ⟨S131072x128, .f32⟩
  | .hbm, ⟨87, _⟩ => ⟨S131072x128, .f32⟩
  | .hbm, ⟨88, _⟩ => ⟨S131072x1, .f32⟩
  | .hbm, ⟨89, _⟩ => ⟨S131072x1, .f32⟩
  | .hbm, ⟨90, _⟩ => ⟨S131072x128, .f32⟩
  | .hbm, ⟨91, _⟩ => ⟨S131072x128, .f32⟩
  | .hbm, ⟨92, _⟩ => ⟨S131072x128, .f32⟩
  | .hbm, ⟨93, _⟩ => ⟨S131072x128, .f32⟩
  | .hbm, ⟨94, _⟩ => ⟨S8192x2048, .f32⟩
  | .hbm, ⟨95, _⟩ => ⟨S4096x2048, .f32⟩
  | .hbm, ⟨96, _⟩ => ⟨S2048x8192, .f32⟩
  | .hbm, ⟨97, _⟩ => ⟨S4096x8192, .f32⟩
  | .hbm, ⟨98, _⟩ => ⟨S1x8192, .f32⟩
  | .hbm, ⟨99, _⟩ => ⟨S4096x8192, .f32⟩
  | .hbm, ⟨100, _⟩ => ⟨S4096x8192, .f32⟩
  | .hbm, ⟨101, _⟩ => ⟨S2x2048x8192, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_cst_6 : Ref sig .tc := ⟨.hbm, 35, rfl⟩
abbrev main_v12 : Ref sig .tc := ⟨.hbm, 36, rfl⟩
abbrev main_v13 : Ref sig .tc := ⟨.hbm, 37, rfl⟩
abbrev main_cst_7 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_8 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_9 : Ref sig .tc := ⟨.hbm, 46, rfl⟩
abbrev main_v20 : Ref sig .tc := ⟨.hbm, 47, rfl⟩
abbrev main_v21 : Ref sig .tc := ⟨.hbm, 48, rfl⟩
abbrev main_cst_10 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_11 : Ref sig .tc := ⟨.hbm, 53, rfl⟩
abbrev main_call2_v0 : Ref sig .tc := ⟨.hbm, 54, rfl⟩
abbrev main_call2_v1 : Ref sig .tc := ⟨.hbm, 55, rfl⟩
abbrev main_v25 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_v26 : Ref sig .tc := ⟨.hbm, 60, rfl⟩
abbrev main_v27 : Ref sig .tc := ⟨.hbm, 61, rfl⟩
abbrev main_cst_13 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_14 : Ref sig .tc := ⟨.hbm, 80, rfl⟩
abbrev main_cst_15 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  shapeCasts_S8192x2048_S131072x128 : S8192x2048.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S8192x2048 : S131072x128.ShapeCasts S8192x2048
  shapeCasts_S2x2048x2048_S4096x2048 : S2x2048x2048.ShapeCasts S4096x2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S2x2048x8192 : S4096x8192.ShapeCasts S2x2048x8192
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Spec.lean ====
/-
  The mathematics of the groupwise 4-bit fake quantisation followed by a linear layer, over the extended reals.

  A weight matrix W of 8192 rows and 2048 columns is cut along each row into 16 groups of 128 consecutive entries.
  For the group (r, g) let lo = min(min_j W[r, 128 g + j], 0) and hi = max(max_j W[r, 128 g + j], 0), shrunk by the
  clipped scale parameters: wmin = lo * (clip(mn) + 1), wmax = hi * (clip(mx) + 1), the pair replaced by (-1, 1)
  when both vanish. With scale = (wmax - wmin) / 15 and zero point zp = round(-wmin / scale), an entry w with rounding
  offset v becomes  scale * (clip(round(w / scale + v) + zp, 0, 15) - zp).
  The layer's output is  out[b, s, n] = sum_k x[b, s, k] * wq[n, k] + bias[n].

  `cell` is one entry in the kernel's order of operations; `cellRef` is the same entry as the reference spells it, with
  its straight-through forms  y + (f(y) - y)  for the clip of the scale parameters and for the two roundings, and a
  negation for  0 - wmin.  On real arguments the two agree (module Algebra).
-/
import Idealize.ShloMosaic.PureOps.Ideal
import Idealize.ShloMosaic.Lib.ValueIdx

noncomputable section

open scoped BigOperators

namespace Cert.Quant

open Idealize.ShloMosaic Idealize.ShloMosaic.ValueIdx

/-- An f32 bit pattern as the extended real it denotes. -/
abbrev lit (b : BitVec 32) : EReal := Ideal.ofBits .f32 b

/-- Round to nearest, ties to even, on the extended reals. -/
abbrev rne (x : EReal) : EReal := Ideal.liftRound Ideal.roundHalfEven x

/-- The weight matrix's shape, the scale vectors', the activations', the bias's and the output's. -/
abbrev SW : Shape := ⟨2, ![8192, 2048]⟩
abbrev SG : Shape := ⟨1, ![131072]⟩
abbrev SX : Shape := ⟨3, ![2, 2048, 2048]⟩
abbrev SB : Shape := ⟨1, ![8192]⟩
abbrev SO : Shape := ⟨3, ![2, 2048, 8192]⟩

/-- Column `128 g + j` of a row. -/
abbrev gcol (g : Fin 16) (j : Fin 128) : Fin 2048 := ⟨128 * g.val + j.val, by omega⟩
/-- The flat number `16 r + g` of group `g` of row `r`. -/
abbrev gflat (r : Fin 8192) (g : Fin 16) : Fin 131072 := ⟨16 * r.val + g.val, by omega⟩
/-- The group a column lies in. -/
abbrev gof (k : Fin 2048) : Fin 16 := ⟨k.val / 128, by omega⟩

/-- The least entry of group `g` of row `r`, folded from +infinity. -/
def grpMin (W : SW.Idx → EReal) (r : Fin 8192) (g : Fin 16) : EReal :=
  (Finset.univ : Finset (Fin 128)).fold min (lit 0x7F800000#32) (fun j => W (ix2 r (gcol g j)))
/-- The greatest entry of group `g` of row `r`, folded from -infinity. -/
def grpMax (W : SW.Idx → EReal) (r : Fin 8192) (g : Fin 16) : EReal :=
  (Finset.univ : Finset (Fin 128)).fold max (lit 0xFF800000#32) (fun j => W (ix2 r (gcol g j)))

/-- The lower end of a group's range: `min(lo, 0) * (clip(mn, -1, 0) + 1)`. -/
def wminRaw (mn lo : EReal) : EReal :=
  min lo (lit 0x00000000#32) * (min (lit 0x00000000#32) (max (lit 0xBF800000#32) mn) + lit 0x3F800000#32)
/-- The upper end of a group's range: `max(hi, 0) * (clip(mx, -1, 0) + 1)`. -/
def wmaxRaw (mx hi : EReal) : EReal :=
  max hi (lit 0x00000000#32) * (min (lit 0x00000000#32) (max (lit 0xBF800000#32) mx) + lit 0x3F800000#32)
/-- Both ends vanish. -/
def degen (a b : EReal) : BitVec 1 :=
  IntOp.andi (Ideal.cmp .oeq a (lit 0x00000000#32)) (Ideal.cmp .oeq b (lit 0x00000000#32))

/-- The dequantised entry from the two ends `a`, `b` of the range (before the degenerate replacement), in the
    kernel's order of operations. -/
def deq (w v a b : EReal) : EReal :=
  let wmin := Scalar.select (degen a b) (lit 0xBF800000#32) a
  let wmax := Scalar.select (degen a b) (lit 0x3F800000#32) b
  let scale := Ideal.div (wmax - wmin) (lit 0x41700000#32)
  let zp := rne (Ideal.div (lit 0x00000000#32 - wmin) scale)
  let q := min (lit 0x41700000#32) (max (lit 0x00000000#32) (rne (Ideal.div w scale + v) + zp))
  scale * (q - zp)

/-- One entry, as the kernel computes it. -/
def cell (w v mn mx lo hi : EReal) : EReal := deq w v (wminRaw mn lo) (wmaxRaw mx hi)

/-- The straight-through form `y + (f y - y)`. -/
abbrev ste (y fy : EReal) : EReal := y + (fy - y)

/-- The reference's spelling of the dequantised entry: straight-through roundings, and a negation. -/
def deqRef (w v a b : EReal) : EReal :=
  let wmin := Scalar.select (degen a b) (lit 0xBF800000#32) a
  let wmax := Scalar.select (degen a b) (lit 0x3F800000#32) b
  let scale := Ideal.div (wmax - wmin) (lit 0x41700000#32)
  let zp := ste (Ideal.div (-wmin) scale) (rne (Ideal.div (-wmin) scale))
  let iw := ste (Ideal.div w scale + v) (rne (Ideal.div w scale + v))
  let q := min (lit 0x41700000#32) (max (lit 0x00000000#32) (iw + zp))
  scale * (q - zp)

/-- The reference's clip of a scale parameter, straight-through. -/
abbrev clipSte (p : EReal) : EReal := ste p (min (lit 0x00000000#32) (max (lit 0xBF800000#32) p))

/-- One entry, as the reference computes it. -/
def cellRef (w v mn mx lo hi : EReal) : EReal :=
  deqRef w v (min lo (lit 0x00000000#32) * (clipSte mn + lit 0x3F800000#32))
    (max hi (lit 0x00000000#32) * (clipSte mx + lit 0x3F800000#32))

/-- The fake-quantised weight matrix, the kernel's way. -/
def wq (W V : SW.Idx → EReal) (MN MX : SG.Idx → EReal) : SW.Idx → EReal := fun i =>
  cell (W i) (V i) (MN (ix1 (gflat (i 0) (gof (i 1))))) (MX (ix1 (gflat (i 0) (gof (i 1)))))
    (grpMin W (i 0) (gof (i 1))) (grpMax W (i 0) (gof (i 1)))
/-- The fake-quantised weight matrix, the reference's way. -/
def wqRef (W V : SW.Idx → EReal) (MN MX : SG.Idx → EReal) : SW.Idx → EReal := fun i =>
  cellRef (W i) (V i) (MN (ix1 (gflat (i 0) (gof (i 1))))) (MX (ix1 (gflat (i 0) (gof (i 1)))))
    (grpMin W (i 0) (gof (i 1))) (grpMax W (i 0) (gof (i 1)))

/-- The layer's output, the kernel's way: the product first, then the bias. -/
def out (X : SX.Idx → EReal) (Bv : SB.Idx → EReal) (Q : SW.Idx → EReal) : SO.Idx → EReal := fun i =>
  (∑ k : Fin 2048, X (ix3 (i 0) (i 1) k) * Q (ix2 (i 2) k)) + Bv (ix1 (i 2))
/-- The layer's output, the reference's way: the bias first. -/
def outRef (X : SX.Idx → EReal) (Bv : SB.Idx → EReal) (Q : SW.Idx → EReal) : SO.Idx → EReal := fun i =>
  Bv (ix1 (i 2)) + ∑ k : Fin 2048, X (ix3 (i 0) (i 1) k) * Q (ix2 (i 2) k)

/-- Every entry of an array is a real number. -/
def AllReal {s : Shape} (A : s.Idx → EReal) : Prop := ∀ i, ∃ r : ℝ, A i = (r : EReal)

end Cert.Quant

end
-- ==== Proof.QuantPay.lean ====
/-
  What the quantising kernel stores for one group of 128 columns, as ONE function of the group's four loads, and that
  function read at an entry: the spec's `cell` of the entry, its row's two scale parameters and the row's extremes
  within the group.
-/
import proofs.«102161_j10024453669436_1_alg».proof.Proof.Gen.KernelIdeal.Frame
import proofs.«102161_j10024453669436_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.QuantPay

open Cert.KernelIdeal Cert.KernelIdeal.Gen
open Idealize.ShloMosaic Idealize.ShloMosaic.TcCoe Idealize.ShloMosaic.ValueIdx

variable {F : FTy → Type} [FloatOps F]

/-- One group's stored block from its loads: the weights `w`, the rounding offsets `v`, the two scale-parameter
    columns `mn`, `mx` (the kernel's first group's text). -/
def grp (w v : Vec F S512x128 .f32) (mn mx : Vec F S512x1 .f32) : Vec F S512x128 .bf16 :=
  k0_pay7 w v (k0_pay5 w mn mx) (k0_pay6 w mn mx)

/-! ## Each group's stored block is the one function of its loads

The sixteen groups run the same operations in the same order; their texts differ only in which intermediate values
were given names, so each equation holds by unfolding. -/

/-- Group 0's stored block is `grp` of its loads. -/
private theorem pay_g0 (w v : Vec F S512x128 .f32) (mn mx : Vec F S512x1 .f32) :
    k0_pay7 w v (k0_pay5 w mn mx) (k0_pay6 w mn mx) = grp w v mn mx := rfl

/-- Group 1's stored block is `grp` of its loads. -/
private theorem pay_g1 (w v : Vec F S512x128 .f32) (mn mx : Vec F S512x1 .f32) :
    k0_pay11 w v (k0_pay8 mn) (k0_pay9 mx) (k0_pay10 w) (Scalar.ofBits .f32 0x00000000#32) = grp w v mn mx := rfl

/-- Group 2's stored block is `grp` of its loads. -/
private theorem pay_g2 (w v : Vec F S512x128 .f32) (mn mx : Vec F S512x1 .f32) :
    k0_pay17 w v (k0_pay15 w mn mx) (k0_pay16 w mn mx) (Scalar.ofBits .f32 0x41700000#32) = grp w v mn mx := rfl

/-- Group 3's stored block is `grp` of its loads. -/
private theorem pay_g3 (w v : Vec F S512x128 .f32) (mn mx : Vec F S512x1 .f32) :
    k0_pay21 w v (k0_pay18 mn) (k0_pay19 mx) (k0_pay20 w) = grp w v mn mx := rfl

/-- Group 4's stored block is `grp` of its loads. -/
private theorem pay_g4 (w v : Vec F S512x128 .f32) (mn mx : Vec F S512x1 .f32) :
    k0_pay27 w v (k0_pay25 w mn mx) (k0_pay26 w mn mx) = grp w v mn mx := rfl

/-- Group 5's stored block is `grp` of its loads. -/
private theorem pay_g5 (w v : Vec F S512x128 .f32) (mn mx : Vec F S512x1 .f32) :
    k0_pay32 w v (k0_pay28 mn) (k0_pay29 mx) (k0_pay30 w) (k0_pay31 w) = grp w v mn mx := rfl

/-- Group 6's stored block is `grp` of its loads. -/
private theorem pay_g6 (w v : Vec F S512x128 .f32) (mn mx : Vec F S512x1 .f32) :
    k0_pay39 w v (k0_pay36 w mn mx) (k0_pay37 w mn mx) (k0_pay38 (F := F)) = grp w v mn mx := rfl

/-- Group 7's stored block is `grp` of its loads. -/
private theorem pay_g7 (w v : Vec F S512x128 .f32) (mn mx : Vec F S512x1 .f32) :
    k0_pay44 w v (k0_pay40 mn) (k0_pay41 mx) (k0_pay42 w) (k0_pay43 w) (Scalar.ofBits .f32 0x00000000#32) = grp w v mn mx := rfl

/-- Group 8's stored block is `grp` of its loads. -/
private theorem pay_g8 (w v : Vec F S512x128 .f32) (mn mx : Vec F S512x1 .f32) :
    k0_pay51 w v (k0_pay49 w mn mx) (k0_pay50 w mn mx) = grp w v mn mx := rfl

/-- Group 9's stored block is `grp` of its loads. -/
private theorem pay_g9 (w v : Vec F S512x128 .f32) (mn mx : Vec F S512x1 .f32) :
    k0_pay56 w v (k0_pay52 mn) (k0_pay53 mx) (k0_pay54 w) (k0_pay55 w) = grp w v mn mx := rfl

/-- Group 10's stored block is `grp` of its loads. -/
private theorem pay_g10 (w v : Vec F S512x128 .f32) (mn mx : Vec F S512x1 .f32) :
    k0_pay64 w v (k0_pay61 w mn mx) (k0_pay62 w mn mx) (k0_pay63 w mn mx) = grp w v mn mx := rfl

/-- Group 11's stored block is `grp` of its loads. -/
private theorem pay_g11 (w v : Vec F S512x128 .f32) (mn mx : Vec F S512x1 .f32) :
    k0_pay70 w v (k0_pay65 mn) (k0_pay66 mx) (k0_pay67 w) (k0_pay68 w) (k0_pay69 (F := F)) = grp w v mn mx := rfl

/-- Group 12's stored block is `grp` of its loads. -/
private theorem pay_g12 (w v : Vec F S512x128 .f32) (mn mx : Vec F S512x1 .f32) :
    k0_pay79 (k0_pay76 w (k0_pay71 mn) mx) (k0_pay77 w (k0_pay71 mn) mx) (k0_pay78 w v (k0_pay71 mn) mx) = grp w v mn mx := rfl

/-- Group 13's stored block is `grp` of its loads. -/
private theorem pay_g13 (w v : Vec F S512x128 .f32) (mn mx : Vec F S512x1 .f32) :
    k0_pay83 w v (k0_pay80 mx) (k0_pay81 w) (k0_pay82 w mn) = grp w v mn mx := rfl

/-- Group 14's stored block is `grp` of its loads. -/
private theorem pay_g14 (w v : Vec F S512x128 .f32) (mn mx : Vec F S512x1 .f32) :
    k0_pay93 (k0_pay89 w (k0_pay84 mn) mx) (k0_pay90 w (k0_pay84 mn) mx) (k0_pay91 w v (k0_pay84 mn) mx) (k0_pay92 w (k0_pay84 mn) mx) = grp w v mn mx := rfl

/-- Group 15's stored block is `grp` of its loads. -/
private theorem pay_g15 (w v : Vec F S512x128 .f32) (mn mx : Vec F S512x1 .f32) :
    k0_pay1 (k0_pay101 (k0_pay94 mx) (k0_pay95 w) (k0_pay96 w mn) (k0_pay97 (F := F))) (k0_pay103 w v (k0_pay94 mx) (k0_pay95 w) (k0_pay96 w mn) (k0_pay97 (F := F))) (k0_pay104 (k0_pay94 mx) (k0_pay95 w) (k0_pay96 w mn) (k0_pay97 (F := F))) = grp w v mn mx := rfl

/-- The output block is the sixteen groups' blocks, each `grp` of its own loads. -/
theorem out0_4_eq (x0 x1 : Vec F S512x2048 .f32) (x2 x3 : Vec F S512x16 .f32) :
    out0_4 x0 x1 x2 x3 = View.canon [⟨r0_30, grp (View.ld x0 r0_30) (View.ld x1 r0_30) (View.ld x2 r0_31) (View.ld x3 r0_31)⟩,
      ⟨r0_28, grp (View.ld x0 r0_28) (View.ld x1 r0_28) (View.ld x2 r0_29) (View.ld x3 r0_29)⟩,
      ⟨r0_26, grp (View.ld x0 r0_26) (View.ld x1 r0_26) (View.ld x2 r0_27) (View.ld x3 r0_27)⟩,
      ⟨r0_24, grp (View.ld x0 r0_24) (View.ld x1 r0_24) (View.ld x2 r0_25) (View.ld x3 r0_25)⟩,
      ⟨r0_22, grp (View.ld x0 r0_22) (View.ld x1 r0_22) (View.ld x2 r0_23) (View.ld x3 r0_23)⟩,
      ⟨r0_20, grp (View.ld x0 r0_20) (View.ld x1 r0_20) (View.ld x2 r0_21) (View.ld x3 r0_21)⟩,
      ⟨r0_18, grp (View.ld x0 r0_18) (View.ld x1 r0_18) (View.ld x2 r0_19) (View.ld x3 r0_19)⟩,
      ⟨r0_16, grp (View.ld x0 r0_16) (View.ld x1 r0_16) (View.ld x2 r0_17) (View.ld x3 r0_17)⟩,
      ⟨r0_14, grp (View.ld x0 r0_14) (View.ld x1 r0_14) (View.ld x2 r0_15) (View.ld x3 r0_15)⟩,
      ⟨r0_12, grp (View.ld x0 r0_12) (View.ld x1 r0_12) (View.ld x2 r0_13) (View.ld x3 r0_13)⟩,
      ⟨r0_10, grp (View.ld x0 r0_10) (View.ld x1 r0_10) (View.ld x2 r0_11) (View.ld x3 r0_11)⟩,
      ⟨r0_8, grp (View.ld x0 r0_8) (View.ld x1 r0_8) (View.ld x2 r0_9) (View.ld x3 r0_9)⟩,
      ⟨r0_6, grp (View.ld x0 r0_6) (View.ld x1 r0_6) (View.ld x2 r0_7) (View.ld x3 r0_7)⟩,
      ⟨r0_4, grp (View.ld x0 r0_4) (View.ld x1 r0_4) (View.ld x2 r0_5) (View.ld x3 r0_5)⟩,
      ⟨r0_2, grp (View.ld x0 r0_2) (View.ld x1 r0_2) (View.ld x2 r0_3) (View.ld x3 r0_3)⟩,
      ⟨r0_0, grp (View.ld x0 r0_0) (View.ld x1 r0_0) (View.ld x2 r0_1) (View.ld x3 r0_1)⟩] := by
  unfold out0_4
  rw [pay_g15, pay_g14, pay_g13, pay_g12, pay_g11, pay_g10, pay_g9, pay_g8, pay_g7, pay_g6, pay_g5, pay_g4, pay_g3, pay_g2, pay_g1, pay_g0]

/-! ## A group's block at an entry -/

/-- A column spread over the 128 lanes reads, at an entry, the column's entry of that row. -/
private theorem col_spread {α : Type} (x : S512x1.Idx → α) (p : Fin 512) (q : Fin 128) :
    broadcastTo S512x128 x broadcasts_S512x1_S512x128 (ix2 p q) = x (ix2 p 0) :=
  broadcastTo_apply x broadcasts_S512x1_S512x128 (ix2 p q) (ix2 p 0) (fun a => by
    match a with
    | ⟨0, _⟩ => rfl
    | ⟨1, _⟩ => rfl)

/-- A vector of 512 entries recast as a column reads, at a row, the vector's entry. -/
private theorem col_of_vec {α : Type} (x : S512.Idx → α) (p : Fin 512) :
    shapeCast S512x1 x shapeCasts_S512_S512x1 (ix2 p 0) = x (ix1 p) :=
  shapeCast_apply x shapeCasts_S512_S512x1 (ix2 p 0) (ix1 p) (by
    rw [Shape.rowMajor_val_two, Shape.rowMajor_val_one]
    show p.val = p.val * 1 + 0
    omega)

/-- The index over row `p` with lane `k` inserted is the entry `(p, k)`. -/
private theorem lift_row (p : Fin 512) (k : Fin 128) :
    reduces_S512x128_S512.lift (ix1 p) k = ix2 p k := by
  funext c
  refine Fin.ext ?_
  match c with
  | ⟨0, _⟩ => rfl
  | ⟨1, _⟩ => rfl

/-- A lane minimum over one axis, read at the ideal values: the fold of `min` from the accumulator's value over that
    axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane minimum of a row: the fold of `min` from +infinity over the row's 128 entries. -/
private theorem rowmin_apply (w : Vec Ideal S512x128 .f32) (p : Fin 512) :
    multiReduction (F := Ideal) .minimumf [1] S512 w 0x7F800000#32 reduces_S512x128_S512 (.inl rfl) rfl (ix1 p)
      = (Finset.univ : Finset (Fin 128)).fold min (Cert.Quant.lit 0x7F800000#32) (fun j => w (ix2 p j)) := by
  refine (multiReduction_minimumf_single w _ reduces_S512x128_S512 _ _ (ix1 p)).trans ?_
  show (Finset.univ : Finset (Fin 128)).fold min (Cert.Quant.lit 0x7F800000#32) (w ∘ reduces_S512x128_S512.lift (ix1 p)) = _
  refine congrArg (fun f => (Finset.univ : Finset (Fin 128)).fold min (Cert.Quant.lit 0x7F800000#32) f) (funext fun (k : Fin 128) => congrArg w (lift_row p k))

/-- The lane maximum of a row: the fold of `max` from -infinity over the row's 128 entries. -/
private theorem rowmax_apply (w : Vec Ideal S512x128 .f32) (p : Fin 512) :
    multiReduction (F := Ideal) .maximumf [1] S512 w 0xFF800000#32 reduces_S512x128_S512 (.inl rfl) rfl (ix1 p)
      = (Finset.univ : Finset (Fin 128)).fold max (Cert.Quant.lit 0xFF800000#32) (fun j => w (ix2 p j)) := by
  refine (Ideal.multiReduction_maximumf_single w _ reduces_S512x128_S512 _ _ (ix1 p)).trans ?_
  show (Finset.univ : Finset (Fin 128)).fold max (Cert.Quant.lit 0xFF800000#32) (w ∘ reduces_S512x128_S512.lift (ix1 p)) = _
  refine congrArg (fun f => (Finset.univ : Finset (Fin 128)).fold max (Cert.Quant.lit 0xFF800000#32) f) (funext fun (k : Fin 128) => congrArg w (lift_row p k))

/-- A rounding to even reads entry by entry. -/
private theorem roundeven_apply {s : Shape} {φ : FTy} (x : FVec Ideal s φ) (i : s.Idx) :
    roundeven x i = Cert.Quant.rne (x i) := rfl

/-- A bitwise and of one-bit vectors reads entry by entry. -/
private theorem andi_apply {s : Shape} {n : Nat} (x y : IVec s n) (i : s.Idx) : andi x y i = IntOp.andi (x i) (y i) := rfl

/-- The row minimum as a column, at a row. -/
private theorem rowmin_col (w : Vec Ideal S512x128 .f32) (p : Fin 512) :
    shapeCast S512x1 (multiReduction (F := Ideal) .minimumf [1] S512 w 0x7F800000#32 reduces_S512x128_S512 (.inl rfl) rfl)
        shapeCasts_S512_S512x1 (ix2 p 0)
      = (Finset.univ : Finset (Fin 128)).fold min (Cert.Quant.lit 0x7F800000#32) (fun j => w (ix2 p j)) :=
  (col_of_vec _ p).trans (rowmin_apply w p)

/-- The row maximum as a column, at a row. -/
private theorem rowmax_col (w : Vec Ideal S512x128 .f32) (p : Fin 512) :
    shapeCast S512x1 (multiReduction (F := Ideal) .maximumf [1] S512 w 0xFF800000#32 reduces_S512x128_S512 (.inl rfl) rfl)
        shapeCasts_S512_S512x1 (ix2 p 0)
      = (Finset.univ : Finset (Fin 128)).fold max (Cert.Quant.lit 0xFF800000#32) (fun j => w (ix2 p j)) :=
  (col_of_vec _ p).trans (rowmax_apply w p)

/-- The lower end of a row's range, before the degenerate replacement. -/
private theorem lo_apply (w : Vec Ideal S512x128 .f32) (mn : Vec Ideal S512x1 .f32) (p : Fin 512) :
    k0_pay2 (F := Ideal) w mn (ix2 p 0)
      = Cert.Quant.wminRaw (mn (ix2 p 0))
          ((Finset.univ : Finset (Fin 128)).fold min (Cert.Quant.lit 0x7F800000#32) (fun j => w (ix2 p j))) := by
  unfold k0_pay2 Cert.Quant.wminRaw
  simp only [shapeCast_self, mulf_apply, addf_apply, minimumf_apply, maximumf_apply, broadcast_apply]
  rw [rowmin_col]
  rfl

/-- The upper end of a row's range, before the degenerate replacement. -/
private theorem hi_apply (w : Vec Ideal S512x128 .f32) (mx : Vec Ideal S512x1 .f32) (p : Fin 512) :
    k0_pay3 (F := Ideal) w mx (ix2 p 0)
      = Cert.Quant.wmaxRaw (mx (ix2 p 0))
          ((Finset.univ : Finset (Fin 128)).fold max (Cert.Quant.lit 0xFF800000#32) (fun j => w (ix2 p j))) := by
  unfold k0_pay3 Cert.Quant.wmaxRaw
  simp only [shapeCast_self, mulf_apply, addf_apply, minimumf_apply, maximumf_apply, broadcast_apply]
  rw [rowmax_col]
  rfl

/-- Both ends vanish, at a row. -/
private theorem degen_apply (w : Vec Ideal S512x128 .f32) (mn mx : Vec Ideal S512x1 .f32) (p : Fin 512) :
    k0_pay4 (F := Ideal) w mn mx (ix2 p 0)
      = Cert.Quant.degen (k0_pay2 (F := Ideal) w mn (ix2 p 0)) (k0_pay3 (F := Ideal) w mx (ix2 p 0)) := by
  unfold k0_pay4 Cert.Quant.degen
  simp only [andi_apply, cmpf_apply, broadcast_apply]
  rfl

/-- The lower end after the degenerate replacement, at a row. -/
private theorem wmin_apply (w : Vec Ideal S512x128 .f32) (mn mx : Vec Ideal S512x1 .f32) (p : Fin 512) :
    k0_pay5 (F := Ideal) w mn mx (ix2 p 0)
      = Scalar.select (Cert.Quant.degen (k0_pay2 (F := Ideal) w mn (ix2 p 0)) (k0_pay3 (F := Ideal) w mx (ix2 p 0)))
          (Cert.Quant.lit 0xBF800000#32) (k0_pay2 (F := Ideal) w mn (ix2 p 0)) := by
  unfold k0_pay5
  simp only [select_apply, broadcast_apply, degen_apply]
  rfl

/-- The upper end after the degenerate replacement, at a row. -/
private theorem wmax_apply (w : Vec Ideal S512x128 .f32) (mn mx : Vec Ideal S512x1 .f32) (p : Fin 512) :
    k0_pay6 (F := Ideal) w mn mx (ix2 p 0)
      = Scalar.select (Cert.Quant.degen (k0_pay2 (F := Ideal) w mn (ix2 p 0)) (k0_pay3 (F := Ideal) w mx (ix2 p 0)))
          (Cert.Quant.lit 0x3F800000#32) (k0_pay3 (F := Ideal) w mx (ix2 p 0)) := by
  unfold k0_pay6
  simp only [select_apply, broadcast_apply, degen_apply]
  rfl

/-- The stored entry from the two ends of its row's range: scale, zero point, quantise, clip, dequantise. -/
private theorem store_apply (w v : Vec Ideal S512x128 .f32) (a b : FVec Ideal S512x1 .f32) (p : Fin 512) (q : Fin 128) :
    k0_pay7 (F := Ideal) w v a b (ix2 p q)
      = Ideal.div (b (ix2 p 0) - a (ix2 p 0)) (Cert.Quant.lit 0x41700000#32)
          * (min (Cert.Quant.lit 0x41700000#32) (max (Cert.Quant.lit 0x00000000#32)
              (Cert.Quant.rne (Ideal.div (w (ix2 p q)) (Ideal.div (b (ix2 p 0) - a (ix2 p 0)) (Cert.Quant.lit 0x41700000#32)) + v (ix2 p q))
                + Cert.Quant.rne (Ideal.div (Cert.Quant.lit 0x00000000#32 - a (ix2 p 0))
                    (Ideal.div (b (ix2 p 0) - a (ix2 p 0)) (Cert.Quant.lit 0x41700000#32)))))
            - Cert.Quant.rne (Ideal.div (Cert.Quant.lit 0x00000000#32 - a (ix2 p 0))
                (Ideal.div (b (ix2 p 0) - a (ix2 p 0)) (Cert.Quant.lit 0x41700000#32)))) := by
  unfold k0_pay7
  simp only [truncf_apply, mulf_apply, subf_apply, addf_apply, divf_apply, minimumf_apply, maximumf_apply,
    broadcast_apply, roundeven_apply, col_spread]
  rfl

/-- A group's block at an entry. -/
theorem grp_apply (w v : Vec Ideal S512x128 .f32) (mn mx : Vec Ideal S512x1 .f32) (p : Fin 512) (q : Fin 128) :
    grp (F := Ideal) w v mn mx (ix2 p q)
      = Cert.Quant.cell (w (ix2 p q)) (v (ix2 p q)) (mn (ix2 p 0)) (mx (ix2 p 0))
          ((Finset.univ : Finset (Fin 128)).fold min (Cert.Quant.lit 0x7F800000#32) (fun j => w (ix2 p j)))
          ((Finset.univ : Finset (Fin 128)).fold max (Cert.Quant.lit 0xFF800000#32) (fun j => w (ix2 p j))) := by
  unfold grp
  rw [store_apply, wmin_apply, wmax_apply, lo_apply, hi_apply]
  rfl

end Cert.KernelIdeal.QuantPay

end
-- ==== Proof.QuantValue.lean ====
/-
  The quantising region's output array, whole: every entry is the spec's `cell` of the region's input arrays.
-/
import proofs.«102161_j10024453669436_1_alg».proof.Proof.QuantPay

set_option maxRecDepth 16384

noncomputable section

namespace Cert.KernelIdeal.QuantValue

open Cert.KernelIdeal Cert.KernelIdeal.Gen
open Idealize.ShloMosaic Idealize.ShloMosaic.TcCoe Idealize.ShloMosaic.ValueIdx
open Idealize.ShloMosaic.Pipeline (Dat)

/-! ## One point's block as one function of the point's four input blocks -/

/-- The entry of a block at row `p`, column `k`: the spec's `cell` of the weight and offset there, the two scale
    parameters of the row's group `k / 128`, and the least and greatest weight of the row within that group. -/
private def blockFn (x0 x1 : Vec Ideal S512x2048 .f32) (x2 x3 : Vec Ideal S512x16 .f32) : Vec Ideal S512x2048 .bf16 :=
  fun y => Cert.Quant.cell (x0 y) (x1 y) (x2 (ix2 (y 0) (Cert.Quant.gof (y 1)))) (x3 (ix2 (y 0) (Cert.Quant.gof (y 1))))
    ((Finset.univ : Finset (Fin 128)).fold min (Cert.Quant.lit 0x7F800000#32)
      (fun j => x0 (ix2 (y 0) (Cert.Quant.gcol (Cert.Quant.gof (y 1)) j))))
    ((Finset.univ : Finset (Fin 128)).fold max (Cert.Quant.lit 0xFF800000#32)
      (fun j => x0 (ix2 (y 0) (Cert.Quant.gcol (Cert.Quant.gof (y 1)) j))))

/-- The stored block of group `g` (columns `128 g ..`, scale column `g`) is `blockFn` under its rectangle. -/
private theorem piece_eq (x0 x1 : Vec Ideal S512x2048 .f32) (x2 x3 : Vec Ideal S512x16 .f32) (gv off : Nat)
    (hg : gv < 16) (hoff : off = 128 * gv)
    (inb : ∀ a, (![0, off] : Fin 2 → Nat) a + S512x128.size a ≤ S512x2048.size a)
    (inb' : ∀ a, (![0, gv] : Fin 2 → Nat) a + S512x1.size a ≤ S512x16.size a)
    (x : S512x128.Idx) :
    QuantPay.grp (F := Ideal) (View.ld x0 (Rect.unit (s := S512x2048) ![0, off] S512x128.size inb))
        (View.ld x1 (Rect.unit (s := S512x2048) ![0, off] S512x128.size inb))
        (View.ld x2 (Rect.unit (s := S512x16) ![0, gv] S512x1.size inb'))
        (View.ld x3 (Rect.unit (s := S512x16) ![0, gv] S512x1.size inb')) x
      = blockFn x0 x1 x2 x3 ((Rect.unit (s := S512x2048) ![0, off] S512x128.size inb).emb x) := by
  obtain ⟨p, q, rfl⟩ : ∃ (p : Fin 512) (q : Fin 128), x = ix2 p q := ⟨x 0, x 1, eq_ix2 x⟩
  rw [QuantPay.grp_apply]
  unfold blockFn
  have hq : q.val < 128 := q.isLt
  have hA : (Rect.unit (s := S512x16) ![0, gv] S512x1.size inb').idx (ix2 p (0 : Fin 1))
      = ix2 (((Rect.unit (s := S512x2048) ![0, off] S512x128.size inb).emb (ix2 p q)) 0)
          (Cert.Quant.gof (((Rect.unit (s := S512x2048) ![0, off] S512x128.size inb).emb (ix2 p q)) 1)) := by
    funext a; apply Fin.ext
    match a with
    | ⟨0, _⟩ => rfl
    | ⟨1, _⟩ => show gv + 1 * 0 = (off + 1 * q.val) / 128; omega
  have hB : ∀ j : Fin 128, (Rect.unit (s := S512x2048) ![0, off] S512x128.size inb).idx (ix2 p j)
      = ix2 (((Rect.unit (s := S512x2048) ![0, off] S512x128.size inb).emb (ix2 p q)) 0)
          (Cert.Quant.gcol (Cert.Quant.gof (((Rect.unit (s := S512x2048) ![0, off] S512x128.size inb).emb (ix2 p q)) 1)) j) := by
    intro j
    have hj : j.val < 128 := j.isLt
    funext a; apply Fin.ext
    match a with
    | ⟨0, _⟩ => rfl
    | ⟨1, _⟩ => show off + 1 * j.val = 128 * ((off + 1 * q.val) / 128) + j.val; omega
  show Cert.Quant.cell _ _ (x2 ((Rect.unit (s := S512x16) ![0, gv] S512x1.size inb').idx (ix2 p (0 : Fin 1))))
      (x3 ((Rect.unit (s := S512x16) ![0, gv] S512x1.size inb').idx (ix2 p (0 : Fin 1))))
      (Finset.fold min _ (fun j => x0 ((Rect.unit (s := S512x2048) ![0, off] S512x128.size inb).idx (ix2 p j))) Finset.univ)
      (Finset.fold max _ (fun j => x0 ((Rect.unit (s := S512x2048) ![0, off] S512x128.size inb).idx (ix2 p j))) Finset.univ) = _
  rw [hA]
  simp only [hB]
  rfl

/-- The output block a point leaves is `blockFn` of the point's four input blocks: each of the sixteen stores holds
    `blockFn` under its rectangle, and the rectangles cover the block. -/
private theorem out_eq (x0 x1 : Vec Ideal S512x2048 .f32) (x2 x3 : Vec Ideal S512x16 .f32) (y : S512x2048.Idx) :
    out0_4 x0 x1 x2 x3 y = blockFn x0 x1 x2 x3 y := by
  rw [QuantPay.out0_4_eq]
  refine View.canon_apply_of_pieces (blockFn x0 x1 x2 x3) _ ?_ y (cover0_4 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact fun x => piece_eq x0 x1 x2 x3 15 1920 (by omega) rfl _ _ x
  · exact fun x => piece_eq x0 x1 x2 x3 14 1792 (by omega) rfl _ _ x
  · exact fun x => piece_eq x0 x1 x2 x3 13 1664 (by omega) rfl _ _ x
  · exact fun x => piece_eq x0 x1 x2 x3 12 1536 (by omega) rfl _ _ x
  · exact fun x => piece_eq x0 x1 x2 x3 11 1408 (by omega) rfl _ _ x
  · exact fun x => piece_eq x0 x1 x2 x3 10 1280 (by omega) rfl _ _ x
  · exact fun x => piece_eq x0 x1 x2 x3 9 1152 (by omega) rfl _ _ x
  · exact fun x => piece_eq x0 x1 x2 x3 8 1024 (by omega) rfl _ _ x
  · exact fun x => piece_eq x0 x1 x2 x3 7 896 (by omega) rfl _ _ x
  · exact fun x => piece_eq x0 x1 x2 x3 6 768 (by omega) rfl _ _ x
  · exact fun x => piece_eq x0 x1 x2 x3 5 640 (by omega) rfl _ _ x
  · exact fun x => piece_eq x0 x1 x2 x3 4 512 (by omega) rfl _ _ x
  · exact fun x => piece_eq x0 x1 x2 x3 3 384 (by omega) rfl _ _ x
  · exact fun x => piece_eq x0 x1 x2 x3 2 256 (by omega) rfl _ _ x
  · exact fun x => piece_eq x0 x1 x2 x3 1 128 (by omega) rfl _ _ x
  · exact fun x => piece_eq x0 x1 x2 x3 0 0 (by omega) rfl _ _ x

/-! ## The whole array as one function of the four arrays the region reads -/

/-- The quantised array of a weight array `A0`, an offset array `A1` and two scale-parameter arrays `A2`, `A3`. -/
private def quantFn (A0 A1 : FVec Ideal S8192x2048 .f32) (A2 A3 : FVec Ideal S8192x16 .f32) : FVec Ideal S8192x2048 .bf16 :=
  fun i => Cert.Quant.cell (A0 i) (A1 i) (A2 (ix2 (i 0) (Cert.Quant.gof (i 1)))) (A3 (ix2 (i 0) (Cert.Quant.gof (i 1))))
    (Cert.Quant.grpMin A0 (i 0) (Cert.Quant.gof (i 1))) (Cert.Quant.grpMax A0 (i 0) (Cert.Quant.gof (i 1)))

/-- When four blocks are rows `512 t ..` of four arrays (all columns), `blockFn` of the blocks at row `p` is the
    quantised array at row `512 t + p`: the group of a column, and so the group's columns, are the same in both. -/
private theorem blockFn_rows (A0 A1 : FVec Ideal S8192x2048 .f32) (A2 A3 : FVec Ideal S8192x16 .f32)
    (x0 x1 : Vec Ideal S512x2048 .f32) (x2 x3 : Vec Ideal S512x16 .f32) (tv : Nat)
    (h0 : ∀ (y : S512x2048.Idx) (i : S8192x2048.Idx), (i 0).val = 512 * tv + (y 0).val → (i 1).val = (y 1).val → x0 y = A0 i)
    (h1 : ∀ (y : S512x2048.Idx) (i : S8192x2048.Idx), (i 0).val = 512 * tv + (y 0).val → (i 1).val = (y 1).val → x1 y = A1 i)
    (h2 : ∀ (y : S512x16.Idx) (i : S8192x16.Idx), (i 0).val = 512 * tv + (y 0).val → (i 1).val = (y 1).val → x2 y = A2 i)
    (h3 : ∀ (y : S512x16.Idx) (i : S8192x16.Idx), (i 0).val = 512 * tv + (y 0).val → (i 1).val = (y 1).val → x3 y = A3 i)
    (y : S512x2048.Idx) (i : S8192x2048.Idx) (hi0 : (i 0).val = 512 * tv + (y 0).val) (hi1 : (i 1).val = (y 1).val) :
    blockFn x0 x1 x2 x3 y = quantFn A0 A1 A2 A3 i := by
  have hg : (i 1).val / 128 = (y 1).val / 128 := by rw [hi1]
  have hf : (fun j : Fin 128 => x0 (ix2 (y 0) (Cert.Quant.gcol (Cert.Quant.gof (y 1)) j)))
      = fun j : Fin 128 => A0 (ix2 (i 0) (Cert.Quant.gcol (Cert.Quant.gof (i 1)) j)) :=
    funext fun j => h0 _ _ hi0 (by show 128 * ((i 1).val / 128) + j.val = 128 * ((y 1).val / 128) + j.val; rw [hg])
  unfold blockFn quantFn Cert.Quant.grpMin Cert.Quant.grpMax
  rw [h0 y i hi0 hi1, h1 y i hi0 hi1, h2 (ix2 (y 0) (Cert.Quant.gof (y 1))) (ix2 (i 0) (Cert.Quant.gof (i 1))) hi0 hg,
    h3 (ix2 (y 0) (Cert.Quant.gof (y 1))) (ix2 (i 0) (Cert.Quant.gof (i 1))) hi0 hg, hf]

/-! ## A point's input blocks as rows of the arrays -/

/-- Grid point `t` is block `(t, 0)` of each of the five arrays (the printed index maps, decided over the grid). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The region's weight, offset and two scale-parameter arrays as it finds them, at their literal types. -/
abbrev arrW (c : Dev nD) : FVec Ideal S8192x2048 .f32 := V c main_arg1
abbrev arrV (c : Dev nD) : FVec Ideal S8192x2048 .f32 := V c main_arg3
abbrev arrMn (c : Dev nD) : FVec Ideal S8192x16 .f32 := V c main_v0
abbrev arrMx (c : Dev nD) : FVec Ideal S8192x16 .f32 := V c main_v1

/-- The weights' block at point `t` is rows `512 t ..` of the weight array. -/
private theorem iblk_0 (c : Dev nD) (t : Fin cfg0.N) (y : S512x2048.Idx) (i : S8192x2048.Idx)
    (h0 : (i 0).val = 512 * t.val + (y 0).val) (h1 : (i 1).val = (y 1).val) :
    (iblk0 V c 0 t : Vec Ideal S512x2048 .f32) y = arrW V c i := by
  obtain ⟨e0, e1, -⟩ := idx_facts t
  unfold iblk0
  rw [View.read_apply]
  show V c main_arg1 _ = V c main_arg1 i
  congr 1
  funext a; apply Fin.ext
  match a with
  | ⟨0, _⟩ => show win0_0.index t 0 * 512 + 1 * (y 0).val = (i 0).val; omega
  | ⟨1, _⟩ => show win0_0.index t 1 * 2048 + 1 * (y 1).val = (i 1).val; omega

/-- The offsets' block at point `t` is rows `512 t ..` of the offset array. -/
private theorem iblk_1 (c : Dev nD) (t : Fin cfg0.N) (y : S512x2048.Idx) (i : S8192x2048.Idx)
    (h0 : (i 0).val = 512 * t.val + (y 0).val) (h1 : (i 1).val = (y 1).val) :
    (iblk0 V c 1 t : Vec Ideal S512x2048 .f32) y = arrV V c i := by
  obtain ⟨-, -, e0, e1, -⟩ := idx_facts t
  unfold iblk0
  rw [View.read_apply]
  show V c main_arg3 _ = V c main_arg3 i
  congr 1
  funext a; apply Fin.ext
  match a with
  | ⟨0, _⟩ => show win0_1.index t 0 * 512 + 1 * (y 0).val = (i 0).val; omega
  | ⟨1, _⟩ => show win0_1.index t 1 * 2048 + 1 * (y 1).val = (i 1).val; omega

/-- The lower scale parameters' block at point `t` is rows `512 t ..` of their array. -/
private theorem iblk_2 (c : Dev nD) (t : Fin cfg0.N) (y : S512x16.Idx) (i : S8192x16.Idx)
    (h0 : (i 0).val = 512 * t.val + (y 0).val) (h1 : (i 1).val = (y 1).val) :
    (iblk0 V c 2 t : Vec Ideal S512x16 .f32) y = arrMn V c i := by
  obtain ⟨-, -, -, -, e0, e1, -⟩ := idx_facts t
  unfold iblk0
  rw [View.read_apply]
  show V c main_v0 _ = V c main_v0 i
  congr 1
  funext a; apply Fin.ext
  match a with
  | ⟨0, _⟩ => show win0_2.index t 0 * 512 + 1 * (y 0).val = (i 0).val; omega
  | ⟨1, _⟩ => show win0_2.index t 1 * 16 + 1 * (y 1).val = (i 1).val; omega

/-- The upper scale parameters' block at point `t` is rows `512 t ..` of their array. -/
private theorem iblk_3 (c : Dev nD) (t : Fin cfg0.N) (y : S512x16.Idx) (i : S8192x16.Idx)
    (h0 : (i 0).val = 512 * t.val + (y 0).val) (h1 : (i 1).val = (y 1).val) :
    (iblk0 V c 3 t : Vec Ideal S512x16 .f32) y = arrMx V c i := by
  obtain ⟨-, -, -, -, -, -, e0, e1, -⟩ := idx_facts t
  unfold iblk0
  rw [View.read_apply]
  show V c main_v1 _ = V c main_v1 i
  congr 1
  funext a; apply Fin.ext
  match a with
  | ⟨0, _⟩ => show win0_3.index t 0 * 512 + 1 * (y 0).val = (i 0).val; omega
  | ⟨1, _⟩ => show win0_3.index t 1 * 16 + 1 * (y 1).val = (i 1).val; omega

/-! ## What each point writes back, the cover, and the array -/

/-- Point `t` writes back rows `512 t ..` of the quantised array of the four arrays as the region finds them. -/
private theorem flushed_eq (c : Dev nD) (t : Fin cfg0.N) :
    (dat0 (F := Ideal) V c).flushed 4 t
      = ((cfg0.win 4).blk t).view.read (Elt Ideal) (quantFn (arrW V c) (arrV V c) (arrMn V c) (arrMx V c)) := by
  show (cfg0.win 4).cut (grid0.coords t) ((dat0 V c).after 4 t) = _
  rw [after0_4]
  obtain ⟨-, -, -, -, -, -, -, -, e0, e1⟩ := idx_facts t
  funext j
  rw [View.read_apply]
  refine (out_eq (iblk0 V c 0 t) (iblk0 V c 1 t) (iblk0 V c 2 t) (iblk0 V c 3 t)
    ((cfg0.win 4).xinj (grid0.coords t) j)).trans ?_
  exact blockFn_rows (arrW V c) (arrV V c) (arrMn V c) (arrMx V c)
    (iblk0 V c 0 t) (iblk0 V c 1 t) (iblk0 V c 2 t) (iblk0 V c 3 t) t.val
    (iblk_0 V c t) (iblk_1 V c t) (iblk_2 V c t) (iblk_3 V c t)
    ((cfg0.win 4).xinj (grid0.coords t) j) (((cfg0.win 4).blk t).view.emb j)
    (by show win0_4.index t 0 * 512 + 1 * (j 0).val = 512 * t.val + (j 0).val; omega)
    (by show win0_4.index t 1 * 2048 + 1 * (j 1).val = (j 1).val; omega)

/-- Row `r` of the array lies in the block of point `r / 512`. -/
private theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, e0, e1⟩ := idx_facts t
  refine ⟨t, flush0_4 t, ?_⟩
  show i ∈ ((View.whole main_v2).slice (win0_4.rect t)).set
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 2048 ≤ (i 1).val ∧ (i 1).val < win0_4.index t 1 * 2048 + 2048; omega

/-- After the region its output array holds, at row `r` and column `k`, the quantised entry of the weight there. -/
theorem quant_array (c : Dev nD) :
    ((dat0 (F := Ideal) V c).arrAt 4 cfg0.N : FVec Ideal S8192x2048 .bf16)
      = fun i : S8192x2048.Idx =>
          Cert.Quant.cell (arrW V c i) (arrV V c i) (arrMn V c (ix2 (i 0) (Cert.Quant.gof (i 1))))
            (arrMx V c (ix2 (i 0) (Cert.Quant.gof (i 1))))
            (Cert.Quant.grpMin (arrW V c) (i 0) (Cert.Quant.gof (i 1))) (Cert.Quant.grpMax (arrW V c) (i 0) (Cert.Quant.gof (i 1))) :=
  (dat0 (F := Ideal) V c).arrAt_eq_of_cover 4 (quantFn (arrW V c) (arrV V c) (arrMn V c) (arrMx V c))
    (fun t _ => flushed_eq V c t) cover

end Cert.KernelIdeal.QuantValue

end
-- ==== Proof.MatmulValue.lean ====
/-
  The matrix-product region's output array, whole: row m, column n holds the contraction of row m of the
  activations with row n of the weights, plus the bias at n.
-/
import proofs.«102161_j10024453669436_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.MatmulValue

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The region's activation, weight and bias arrays as it finds them, at their literal types. -/
abbrev arrX (c : Dev nD) : FVec Ideal S4096x2048 .f32 := V c main_v3
abbrev arrQ (c : Dev nD) : FVec Ideal S8192x2048 .bf16 := V c main_v2
abbrev arrB (c : Dev nD) : FVec Ideal S1x8192 .f32 := V c main_v4

/-! ## The body's arithmetic at an index -/

/-- The left operand's row is the result's row. -/
private theorem lhs_mm_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- The left operand's column is the contraction position. -/
private theorem lhs_mm_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The right operand's row is the result's column. -/
private theorem rhs_mm_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- The right operand's column is the contraction position. -/
private theorem rhs_mm_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator, at row `p` and column `q`: row `p` of the left operand against row `q` of the right. -/
private theorem mm_apply (l : FVec Ideal S512x2048 .bf16) (r : FVec Ideal S2048x2048 .bf16) (p : Fin 512) (q : Fin 2048) :
    matmul dot_S512x2048_S2048x2048_S512x2048_1_1_0_0_n_n none l r (constant (F := Ideal) S512x2048 .f32 0x00000000#32) (ix2 p q)
      = ∑ k : Fin 2048, l (ix2 p k) * r (ix2 q k) := by
  simp only [matmul]
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]

/-- The bias row spread over the rows, at row `p` and column `q`: the bias at `q`. -/
private theorem bias_apply (b : FVec Ideal S1x2048 .f32) (p : Fin 512) (q : Fin 2048) :
    broadcastTo S512x2048 b broadcasts_S1x2048_S512x2048 (ix2 p q) = b (ix2 (0 : Fin 1) q) :=
  broadcastTo_apply b broadcasts_S1x2048_S512x2048 (ix2 p q) (ix2 (0 : Fin 1) q) (fun a => by
    match a with
    | ⟨0, _⟩ => rfl
    | ⟨1, _⟩ => rfl)

/-- The body's result at row `p`, column `q`: the contraction of row `p` of the activations with row `q` of
    the weights, plus the bias at `q`. -/
private theorem pay_apply (x : Vec Ideal S512x2048 .f32) (w : Vec Ideal S2048x2048 .bf16) (b : Vec Ideal S1x2048 .f32) (p : Fin 512) (q : Fin 2048) :
    k1_pay1 (F := Ideal) x w b (ix2 p q) = (∑ k : Fin 2048, x (ix2 p k) * w (ix2 q k)) + b (ix2 (0 : Fin 1) q) := by
  unfold k1_pay1
  simp only [shapeCast_self]
  rw [addf_apply, mm_apply, bias_apply]
  rfl

/-! ## From the blocks to the array -/

private theorem hz : (![0, 0] : Fin 2 → Nat) = fun _ => 0 := funext fun a => by fin_cases a <;> rfl

/-- The array the region leaves, as one function of the three arrays it reads. -/
private abbrev prodArr (A : FVec Ideal S4096x2048 .f32) (Q : FVec Ideal S8192x2048 .bf16) (B : FVec Ideal S1x8192 .f32) :
    FVec Ideal S4096x8192 .f32 :=
  fun i => (∑ k : Fin 2048, A (ix2 (i 0) k) * Q (ix2 (i 1) k)) + B (ix2 (0 : Fin 1) (i 1))

/-- One output block from the three input blocks: when the activations' block is rows `r0 …` of the activations,
    the weights' block rows `c0 …` of the weights and the bias's block columns `c0 …` of the bias, the body's result
    at `j` is the whole product at row `r0 + j 0`, column `c0 + j 1`. -/
private theorem pay_block (A : FVec Ideal S4096x2048 .f32) (Q : FVec Ideal S8192x2048 .bf16) (B : FVec Ideal S1x8192 .f32)
    (x0 : Vec Ideal S512x2048 .f32) (x1 : Vec Ideal S2048x2048 .bf16) (x2 : Vec Ideal S1x2048 .f32) (r0 c0 : Nat)
    (h0 : ∀ (y : S512x2048.Idx) (z : S4096x2048.Idx), (z 0).val = r0 + (y 0).val → (z 1).val = (y 1).val → x0 y = A z)
    (h1 : ∀ (y : S2048x2048.Idx) (z : S8192x2048.Idx), (z 0).val = c0 + (y 0).val → (z 1).val = (y 1).val → x1 y = Q z)
    (h2 : ∀ (y : S1x2048.Idx) (z : S1x8192.Idx), (z 1).val = c0 + (y 1).val → x2 y = B z)
    (j : S512x2048.Idx) (i : S4096x8192.Idx) (hi0 : (i 0).val = r0 + (j 0).val) (hi1 : (i 1).val = c0 + (j 1).val) :
    k1_pay1 (F := Ideal) x0 x1 x2 j = prodArr A Q B i := by
  obtain ⟨p, q, rfl⟩ : ∃ (p : Fin 512) (q : Fin 2048), j = ix2 p q := ⟨j 0, j 1, eq_ix2 j⟩
  rw [pay_apply]
  show _ = (∑ k : Fin 2048, A (ix2 (i 0) k) * Q (ix2 (i 1) k)) + B (ix2 (0 : Fin 1) (i 1))
  rw [h2 (ix2 (0 : Fin 1) q) (ix2 (0 : Fin 1) (i 1)) hi1]
  congr 1
  refine Finset.sum_congr rfl fun k _ => ?_
  rw [h0 (ix2 p k) (ix2 (i 0) k) hi0 rfl, h1 (ix2 q k) (ix2 (i 1) k) hi1 rfl]

/-- The index maps over the grid: the activations' block row is the output's, the weights' block row and the bias's
    block column are the output's block column, the other block coordinates are zero; the output's block indices
    stay in their ranges. -/
private theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7 ∧ win1_3.index t (1 : Fin 2) ≤ 3 :=
  (by decide +kernel : ∀ t : Fin grid1.N, _)

/-- Every output block is some point's. -/
private theorem idx_onto : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

/-- What point `t` writes back is its block of the whole product. -/
private theorem flushed_eq (c : Dev nD) (t : Fin cfg1.N) :
    (dat1 (F := Ideal) V c).flushed 3 t = ((cfg1.win 3).blk t).view.read (Elt Ideal) (prodArr (arrX V c) (arrQ V c) (arrB V c)) := by
  show (cfg1.win 3).cut (grid1.coords t) ((dat1 (F := Ideal) V c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨e0, e1, e2, e3, e4, e5, e6, e7⟩ := idx_facts t
  funext j
  show k1_pay1 (F := Ideal) (iblk1 V c 0 t) (iblk1 V c 1 t) (iblk1 V c 2 t) j
      = prodArr (arrX V c) (arrQ V c) (arrB V c) (((cfg1.win 3).blk t).view.emb j)
  refine pay_block (arrX V c) (arrQ V c) (arrB V c) (iblk1 V c 0 t) (iblk1 V c 1 t) (iblk1 V c 2 t)
    (win1_3.index t (0 : Fin 2) * 512) (win1_3.index t (1 : Fin 2) * 2048) ?_ ?_ ?_ j (((cfg1.win 3).blk t).view.emb j) ?_ ?_
  · intro y z hz0 hz1
    show V c main_v3 (((cfg1.win 0).blk t).view.emb y) = V c main_v3 z
    refine congrArg (V c main_v3) (funext fun a => Fin.ext ?_)
    match a with
    | ⟨0, _⟩ => show win1_0.index t (0 : Fin 2) * 512 + 1 * (y 0).val = (z 0).val; omega
    | ⟨1, _⟩ => show win1_0.index t (1 : Fin 2) * 2048 + 1 * (y 1).val = (z 1).val; omega
  · intro y z hz0 hz1
    show V c main_v2 (((cfg1.win 1).blk t).view.emb y) = V c main_v2 z
    refine congrArg (V c main_v2) (funext fun a => Fin.ext ?_)
    match a with
    | ⟨0, _⟩ => show win1_1.index t (0 : Fin 2) * 2048 + 1 * (y 0).val = (z 0).val; omega
    | ⟨1, _⟩ => show win1_1.index t (1 : Fin 2) * 2048 + 1 * (y 1).val = (z 1).val; omega
  · intro y z hz1
    show V c main_v4 (((cfg1.win 2).blk t).view.emb y) = V c main_v4 z
    refine congrArg (V c main_v4) (funext fun a => Fin.ext ?_)
    have hy0 : (y 0).val < 1 := (y 0).isLt
    have hz0 : (z 0).val < 1 := (z 0).isLt
    match a with
    | ⟨0, _⟩ => show win1_2.index t (0 : Fin 2) * 1 + 1 * (y 0).val = (z 0).val; omega
    | ⟨1, _⟩ => show win1_2.index t (1 : Fin 2) * 2048 + 1 * (y 1).val = (z 1).val; omega
  · show win1_3.index t (0 : Fin 2) * 512 + 1 * (j 0).val = _; omega
  · show win1_3.index t (1 : Fin 2) * 2048 + 1 * (j 1).val = _; omega

/-- An index of the output array is in point `t`'s block iff each coordinate is in the block's range on its axis. -/
private theorem mem_blk (t : Fin cfg1.N) (i : S4096x8192.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v5).slice (win1_3.rect t)).set ↔ _
  rw [View.set_slice_whole, Rect.mem_set_unit]
  exact Iff.rfl

/-- The output's blocks fill its array: row `r`, column `s` lies in the block of row `r / 512`, column `s / 2048`. -/
private theorem cover (i : S4096x8192.Idx) :
    ∃ t : Fin cfg1.N, (cfg1.win 3).flush t = true ∧ i ∈ ((cfg1.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win1_3.index t (0 : Fin 2) = (i 0).val / 512 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- After the region its output array holds the product with the transposed weights plus the bias. -/
theorem matmul_array (c : Dev nD) :
    ((dat1 (F := Ideal) V c).arrAt 3 cfg1.N : FVec Ideal S4096x8192 .f32)
      = fun i : S4096x8192.Idx =>
          (∑ k : Fin 2048, arrX V c (ix2 (i 0) k) * arrQ V c (ix2 (i 1) k)) + arrB V c (ix2 (0 : Fin 1) (i 1)) :=
  (dat1 (F := Ideal) V c).arrAt_eq_of_cover 3 (prodArr (arrX V c) (arrQ V c) (arrB V c))
    (fun t _ => flushed_eq V c t) cover

end Cert.KernelIdeal.MatmulValue

end
-- ==== Proof.KernelValue.lean ====
/-
  The kernel program's result buffer after the run, as the spec's `out` of the launch contents: the last host
  reshape over the product region's array, whose weight operand is the quantising region's array, whose operands are
  the launch arrays (two of them reshaped on the host).
-/
import proofs.«102161_j10024453669436_1_alg».proof.Proof.QuantValue
import proofs.«102161_j10024453669436_1_alg».proof.Proof.MatmulValue

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.StableHlo (after_cons after_nil)

variable (m : (ℓ : Loc nD τ sig) → Buf (Elt Ideal) ℓ) (ρ : Dev nD → PrngReg)

/-- The launch arrays at their literal types. -/
abbrev aX (c : Dev nD) : FVec Ideal S2x2048x2048 .f32 := m ((c.tc : Thread nD τ).loc main_arg0)
abbrev aW (c : Dev nD) : FVec Ideal S8192x2048 .f32 := m ((c.tc : Thread nD τ).loc main_arg1)
abbrev aB (c : Dev nD) : FVec Ideal S8192 .f32 := m ((c.tc : Thread nD τ).loc main_arg2)
abbrev aV (c : Dev nD) : FVec Ideal S8192x2048 .f32 := m ((c.tc : Thread nD τ).loc main_arg3)
abbrev aMn (c : Dev nD) : FVec Ideal S131072 .f32 := m ((c.tc : Thread nD τ).loc main_arg4)
abbrev aMx (c : Dev nD) : FVec Ideal S131072 .f32 := m ((c.tc : Thread nD τ).loc main_arg5)

/-! ## The buffer contents at the boundaries, back to the launch arrays -/

/-- The quantising region finds the weight matrix as launched. -/
theorem entry0_W (c : Dev nD) : QuantValue.arrW (V1 m ρ) c = aW m c := by
  show StableHlo.after hostOps0 (W0 m ρ c) (Proc.devRef .tc main_arg1) = _
  after_results <;> rfl
/-- … and the rounding offsets as launched. -/
theorem entry0_V (c : Dev nD) : QuantValue.arrV (V1 m ρ) c = aV m c := by
  show StableHlo.after hostOps0 (W0 m ρ c) (Proc.devRef .tc main_arg3) = _
  after_results <;> rfl
/-- It finds the lower scale parameters reshaped to one row per weight row. -/
theorem entry0_Mn (c : Dev nD) :
    QuantValue.arrMn (V1 m ρ) c = shapeCast S8192x16 (aMn m c) shapeCasts_S131072_S8192x16 := by
  show StableHlo.after hostOps0 (W0 m ρ c) (Proc.devRef .tc main_v0) = _
  after_results <;> rfl
/-- … and the upper ones likewise. -/
theorem entry0_Mx (c : Dev nD) :
    QuantValue.arrMx (V1 m ρ) c = shapeCast S8192x16 (aMx m c) shapeCasts_S131072_S8192x16 := by
  show StableHlo.after hostOps0 (W0 m ρ c) (Proc.devRef .tc main_v1) = _
  after_results <;> rfl

/-- The activations are untouched up to the quantising region's exit. -/
theorem exit0_X (c : Dev nD) : (W2 m ρ c (Proc.devRef .tc main_arg0) : FVec Ideal S2x2048x2048 .f32) = aX m c :=
  (W2_of_ne m ρ c main_arg0 (by decide)).trans (by
    show StableHlo.after hostOps0 (W0 m ρ c) (Proc.devRef .tc main_arg0) = _
    after_results <;> rfl)
/-- So is the bias. -/
theorem exit0_B (c : Dev nD) : (W2 m ρ c (Proc.devRef .tc main_arg2) : FVec Ideal S8192 .f32) = aB m c :=
  (W2_of_ne m ρ c main_arg2 (by decide)).trans (by
    show StableHlo.after hostOps0 (W0 m ρ c) (Proc.devRef .tc main_arg2) = _
    after_results <;> rfl)

/-- The product region finds the activations flattened to one row per token. -/
theorem entry1_X (c : Dev nD) :
    MatmulValue.arrX (V3 m ρ) c = shapeCast S4096x2048 (aX m c) shapeCasts_S2x2048x2048_S4096x2048 := by
  rw [← exit0_X m ρ c]
  show StableHlo.after hostOps1 (W2 m ρ c) (Proc.devRef .tc main_v3) = _
  after_results <;> rfl
/-- It finds the bias as a single row. -/
theorem entry1_B (c : Dev nD) :
    MatmulValue.arrB (V3 m ρ) c = shapeCast S1x8192 (aB m c) shapeCasts_S8192_S1x8192 := by
  rw [← exit0_B m ρ c]
  show StableHlo.after hostOps1 (W2 m ρ c) (Proc.devRef .tc main_v4) = _
  after_results <;> rfl
/-- Its weight operand is the quantising region's output array. -/
theorem entry1_Q (c : Dev nD) :
    MatmulValue.arrQ (V3 m ρ) c = ((dat0 (F := Ideal) (V1 m ρ) c).arrAt 4 cfg0.N : FVec Ideal S8192x2048 .bf16) := by
  rw [← W2_arr m ρ c 4]
  show StableHlo.after hostOps1 (W2 m ρ c) (Proc.devRef .tc main_v2) = _
  after_results <;> rfl

/-- The result buffer is the product region's output array, reshaped. -/
theorem last_eq (c : Dev nD) :
    (W5 (F := Ideal) m ρ c (Proc.devRef .tc main_v6) : FVec Ideal S2x2048x8192 .f32)
      = shapeCast S2x2048x8192 ((dat1 (F := Ideal) (V3 m ρ) c).arrAt 3 cfg1.N : FVec Ideal S4096x8192 .f32)
          shapeCasts_S4096x8192_S2x2048x8192 := by
  rw [← W4_arr m ρ c 3]
  show StableHlo.after hostOps2 (W4 m ρ c) (Proc.devRef .tc main_v6) = _
  after_results <;> rfl

/-! ## The host reshapes read at an index -/

/-- Token `(b, s)` is row `2048 b + s` of the flattened activations. -/
abbrev tok (b : Fin 2) (s : Fin 2048) : Fin 4096 := ⟨2048 * b.val + s.val, by omega⟩

/-- The flattened activations at row `2048 b + s` are the activations at `(b, s)`. -/
theorem flat_apply (A : FVec Ideal S2x2048x2048 .f32) (b : Fin 2) (s k : Fin 2048) :
    shapeCast S4096x2048 A shapeCasts_S2x2048x2048_S4096x2048 (ix2 (tok b s) k) = A (ix3 b s k) :=
  shapeCast_apply A shapeCasts_S2x2048x2048_S4096x2048 (ix2 (tok b s) k) (ix3 b s k) (by
    rewrite [Shape.rowMajor_val_three, Shape.rowMajor_val_two]
    show (b.val * 2048 + s.val) * 2048 + k.val = (2048 * b.val + s.val) * 2048 + k.val
    omega)

/-- The output at `(b, s, n)` is the flat output at row `2048 b + s`. -/
theorem unflat_apply (Y : FVec Ideal S4096x8192 .f32) (b : Fin 2) (s : Fin 2048) (n : Fin 8192) :
    shapeCast S2x2048x8192 Y shapeCasts_S4096x8192_S2x2048x8192 (ix3 b s n) = Y (ix2 (tok b s) n) :=
  shapeCast_apply Y shapeCasts_S4096x8192_S2x2048x8192 (ix3 b s n) (ix2 (tok b s) n) (by
    rewrite [Shape.rowMajor_val_three, Shape.rowMajor_val_two]
    show (2048 * b.val + s.val) * 8192 + n.val = (b.val * 2048 + s.val) * 8192 + n.val
    omega)

/-- The bias as a single row. -/
theorem row_apply (A : FVec Ideal S8192 .f32) (n : Fin 8192) :
    shapeCast S1x8192 A shapeCasts_S8192_S1x8192 (ix2 (0 : Fin 1) n) = A (ix1 n) :=
  shapeCast_apply A shapeCasts_S8192_S1x8192 (ix2 (0 : Fin 1) n) (ix1 n) (by
    rewrite [Shape.rowMajor_val_one, Shape.rowMajor_val_two]
    show n.val = 0 * 8192 + n.val
    omega)

/-- Scale parameter `g` of weight row `r` is entry `16 r + g` of the flat vector. -/
theorem scales_apply (A : FVec Ideal S131072 .f32) (r : Fin 8192) (g : Fin 16) :
    shapeCast S8192x16 A shapeCasts_S131072_S8192x16 (ix2 r g) = A (ix1 (Cert.Quant.gflat r g)) :=
  shapeCast_apply A shapeCasts_S131072_S8192x16 (ix2 r g) (ix1 (Cert.Quant.gflat r g)) (by
    rewrite [Shape.rowMajor_val_one, Shape.rowMajor_val_two]
    show 16 * r.val + g.val = r.val * 16 + g.val
    omega)

/-- One quantised entry over the reshaped scale parameters is the spec's quantised matrix there. -/
theorem quant_entry (W V : FVec Ideal S8192x2048 .f32) (MN MX : FVec Ideal S131072 .f32) (n : Fin 8192) (k : Fin 2048) :
    Cert.Quant.cell (W (ix2 n k)) (V (ix2 n k))
        (shapeCast S8192x16 MN shapeCasts_S131072_S8192x16 (ix2 n (Cert.Quant.gof k)))
        (shapeCast S8192x16 MX shapeCasts_S131072_S8192x16 (ix2 n (Cert.Quant.gof k)))
        (Cert.Quant.grpMin W n (Cert.Quant.gof k)) (Cert.Quant.grpMax W n (Cert.Quant.gof k))
      = Cert.Quant.wq W V MN MX (ix2 n k) := by
  rw [scales_apply, scales_apply]; rfl

/-- The result buffer at the last boundary is the layer's output over the kernel's quantised weights. -/
theorem result_eq (c : Dev nD) :
    (W5 (F := Ideal) m ρ c (Proc.devRef .tc main_v6) : FVec Ideal S2x2048x8192 .f32)
      = Cert.Quant.out (aX m c) (aB m c) (Cert.Quant.wq (aW m c) (aV m c) (aMn m c) (aMx m c)) := by
  rw [last_eq m ρ c, MatmulValue.matmul_array (V3 m ρ) c, entry1_X m ρ c, entry1_B m ρ c, entry1_Q m ρ c,
    QuantValue.quant_array (V1 m ρ) c, entry0_W m ρ c, entry0_V m ρ c, entry0_Mn m ρ c, entry0_Mx m ρ c]
  funext i
  obtain ⟨b, s, n, rfl⟩ : ∃ (b : Fin 2) (s : Fin 2048) (n : Fin 8192), i = ix3 b s n := ⟨i 0, i 1, i 2, eq_ix3 i⟩
  rw [unflat_apply]
  unfold Cert.Quant.out
  show (∑ k : Fin 2048, _ * _) + _ = (∑ k : Fin 2048, _ * _) + _
  refine congrArg₂ (· + ·) (Finset.sum_congr rfl fun k _ => ?_) (row_apply (aB m c) n)
  exact congrArg₂ (· * ·) (flat_apply (aX m c) b s k) (quant_entry (aW m c) (aV m c) (aMn m c) (aMx m c) n k)

end Cert.KernelIdeal.KernelValue

end
-- ==== Proof.RefValue.lean ====
/-
  The reference's result, read stage by stage: it is the spec's `outRef` of the quantised matrix `wqRef`.
-/
import proofs.«102161_j10024453669436_1_alg».proof.Proof.Gen.ReferenceIdeal.Read
import proofs.«102161_j10024453669436_1_alg».proof.Proof.Spec
import Idealize.ShloMosaic.Lib.ValueIdx
import Idealize.ShloMosaic.Lib.Pipeline.Value
import Idealize.ShloMosaic.PureOps.Ideal.Laws

noncomputable section

open scoped BigOperators

namespace Cert.Quant.RefValue

open Cert.ReferenceIdeal Cert.ReferenceIdeal.Read
open Idealize.ShloMosaic Idealize.ShloMosaic.TcCoe Idealize.ShloMosaic.ValueIdx

/-! ### The per-group quantities of the reference, named as the specification spells them -/

/-- The lower end of a group's range, as the reference computes it. -/
private def endA (lo mn : EReal) : EReal := min lo (lit 0x00000000#32) * (clipSte mn + lit 0x3F800000#32)
/-- The upper end of a group's range, as the reference computes it. -/
private def endB (hi mx : EReal) : EReal := max hi (lit 0x00000000#32) * (clipSte mx + lit 0x3F800000#32)
/-- The lower end after the degenerate replacement. -/
private def wminOf (a b : EReal) : EReal := Scalar.select (degen a b) (lit 0xBF800000#32) a
/-- The upper end after the degenerate replacement. -/
private def wmaxOf (a b : EReal) : EReal := Scalar.select (degen a b) (lit 0x3F800000#32) b
/-- The group's scale. -/
private def scaleOf (a b : EReal) : EReal := Ideal.div (wmaxOf a b - wminOf a b) (lit 0x41700000#32)
/-- The group's zero point, a straight-through rounding. -/
private def zpOf (a b : EReal) : EReal :=
  ste (Ideal.div (-wminOf a b) (scaleOf a b)) (rne (Ideal.div (-wminOf a b) (scaleOf a b)))

/-- The reference's dequantised entry is the scale times the clipped, shifted, rounded quotient less the zero point. -/
private theorem deqRef_eq (w v a b : EReal) :
    deqRef w v a b
      = scaleOf a b * (min (lit 0x41700000#32) (max (lit 0x00000000#32)
          (ste (Ideal.div w (scaleOf a b) + v) (rne (Ideal.div w (scaleOf a b) + v)) + zpOf a b)) - zpOf a b) := rfl

/-- The straight-through clip of the lower scale parameter. -/
private theorem v2_eq (x4 : (⟨S131072, .f32⟩ : BufTy).Contents (Elt Ideal)) (G : S131072.Idx) :
    val_main_v2 (F := Ideal) x4 G = clipSte (x4 G) := by
  rw [val_main_v2_apply, val_main_v1_apply, val_main_v0_apply, val_main_call0_v4_apply, val_main_call0_v3_apply,
    val_main_cst_0_apply, val_main_call0_v2_apply, val_main_call0_v1_apply, val_main_call0_v0_apply, val_main_cst_apply]
  rfl

/-- The straight-through clip of the upper scale parameter. -/
private theorem v5_eq (x5 : (⟨S131072, .f32⟩ : BufTy).Contents (Elt Ideal)) (G : S131072.Idx) :
    val_main_v5 (F := Ideal) x5 G = clipSte (x5 G) := by
  rw [val_main_v5_apply, val_main_v4_apply, val_main_v3_apply, val_main_call1_v4_apply, val_main_call1_v3_apply,
    val_main_cst_2_apply, val_main_call1_v2_apply, val_main_call1_v1_apply, val_main_call1_v0_apply, val_main_cst_1_apply]
  rfl

/-- The lower end of the range from the group's least entry. -/
private theorem v16_eq (x1 : (⟨S8192x2048, .f32⟩ : BufTy).Contents (Elt Ideal))
    (x4 : (⟨S131072, .f32⟩ : BufTy).Contents (Elt Ideal)) (G : S131072.Idx) :
    val_main_v16 (F := Ideal) x1 x4 G = endA (val_main_v8 (F := Ideal) x1 G) (x4 G) := by
  rw [val_main_v16_apply, val_main_v10_apply, val_main_v9_apply, val_main_cst_4_apply, val_main_v15_apply, v2_eq,
    val_main_v14_apply, val_main_cst_7_apply]
  rfl

/-- The upper end of the range from the group's greatest entry. -/
private theorem v19_eq (x1 : (⟨S8192x2048, .f32⟩ : BufTy).Contents (Elt Ideal))
    (x5 : (⟨S131072, .f32⟩ : BufTy).Contents (Elt Ideal)) (G : S131072.Idx) :
    val_main_v19 (F := Ideal) x1 x5 G = endB (val_main_v11 (F := Ideal) x1 G) (x5 G) := by
  rw [val_main_v19_apply, val_main_v13_apply, val_main_v12_apply, val_main_cst_6_apply, val_main_v18_apply, v5_eq,
    val_main_v17_apply, val_main_cst_8_apply]
  rfl

/-- The test that both ends vanish. -/
private theorem v24_eq (x1 : (⟨S8192x2048, .f32⟩ : BufTy).Contents (Elt Ideal))
    (x4 x5 : (⟨S131072, .f32⟩ : BufTy).Contents (Elt Ideal)) (G : S131072.Idx) :
    val_main_v24 (F := Ideal) x1 x4 x5 G
      = degen (val_main_v16 (F := Ideal) x1 x4 G) (val_main_v19 (F := Ideal) x1 x5 G) := by
  rw [val_main_v24_apply, val_main_v21_apply, val_main_v23_apply, val_main_v20_apply, val_main_cst_9_apply,
    val_main_v22_apply, val_main_cst_10_apply]
  rfl

/-- The lower end after the degenerate replacement. -/
private theorem v25_eq (x1 : (⟨S8192x2048, .f32⟩ : BufTy).Contents (Elt Ideal))
    (x4 x5 : (⟨S131072, .f32⟩ : BufTy).Contents (Elt Ideal)) (G : S131072.Idx) :
    val_main_v25 (F := Ideal) x1 x4 x5 G
      = wminOf (val_main_v16 (F := Ideal) x1 x4 G) (val_main_v19 (F := Ideal) x1 x5 G) := by
  rw [val_main_v25_apply, v24_eq, val_main_call2_v1_apply, val_main_call2_v0_apply, val_main_cst_11_apply]
  rfl

/-- The upper end after the degenerate replacement. -/
private theorem v26_eq (x1 : (⟨S8192x2048, .f32⟩ : BufTy).Contents (Elt Ideal))
    (x4 x5 : (⟨S131072, .f32⟩ : BufTy).Contents (Elt Ideal)) (G : S131072.Idx) :
    val_main_v26 (F := Ideal) x1 x4 x5 G
      = wmaxOf (val_main_v16 (F := Ideal) x1 x4 G) (val_main_v19 (F := Ideal) x1 x5 G) := by
  rw [val_main_v26_apply, v24_eq, val_main_call3_v1_apply, val_main_call3_v0_apply, val_main_cst_12_apply]
  rfl

/-- The group's scale. -/
private theorem v29_eq (x1 : (⟨S8192x2048, .f32⟩ : BufTy).Contents (Elt Ideal))
    (x4 x5 : (⟨S131072, .f32⟩ : BufTy).Contents (Elt Ideal)) (G : S131072.Idx) :
    val_main_v29 (F := Ideal) x1 x4 x5 G
      = scaleOf (val_main_v16 (F := Ideal) x1 x4 G) (val_main_v19 (F := Ideal) x1 x5 G) := by
  rw [val_main_v29_apply, val_main_v27_apply, v25_eq, v26_eq, val_main_v28_apply, val_main_cst_13_apply]
  rfl

/-- The group's zero point. -/
private theorem v34_eq (x1 : (⟨S8192x2048, .f32⟩ : BufTy).Contents (Elt Ideal))
    (x4 x5 : (⟨S131072, .f32⟩ : BufTy).Contents (Elt Ideal)) (G : S131072.Idx) :
    val_main_v34 (F := Ideal) x1 x4 x5 G
      = zpOf (val_main_v16 (F := Ideal) x1 x4 G) (val_main_v19 (F := Ideal) x1 x5 G) := by
  rw [val_main_v34_apply, val_main_v33_apply, val_main_v32_apply, val_main_v31_apply, val_main_v30_apply, v25_eq, v29_eq]
  rfl

/-! ### The entries of a group -/

/-- The group of an entry of the [131072, 128] arrangement, reached through the two broadcasts. -/
private theorem bcast_idx (R : Fin 131072) (j : Fin 128) :
    idx_main_v35 (idx_main_v36 (ix2 R j)) = ix1 R := by
  funext a; match a with | ⟨0, _⟩ => rfl

/-- One dequantised entry of the [131072, 128] arrangement. -/
private theorem v51_eq (x1 x3 : (⟨S8192x2048, .f32⟩ : BufTy).Contents (Elt Ideal))
    (x4 x5 : (⟨S131072, .f32⟩ : BufTy).Contents (Elt Ideal)) (R : Fin 131072) (j : Fin 128) :
    val_main_v51 (F := Ideal) x1 x3 x4 x5 (ix2 R j)
      = deqRef (val_main_v6 (F := Ideal) x1 (ix2 R j)) (val_main_v7 (F := Ideal) x3 (ix2 R j))
          (val_main_v16 (F := Ideal) x1 x4 (ix1 R)) (val_main_v19 (F := Ideal) x1 x5 (ix1 R)) := by
  have e36 : val_main_v36 (F := Ideal) x1 x4 x5 (ix2 R j)
      = scaleOf (val_main_v16 (F := Ideal) x1 x4 (ix1 R)) (val_main_v19 (F := Ideal) x1 x5 (ix1 R)) := by
    rw [val_main_v36_apply, val_main_v35_apply, bcast_idx, v29_eq]
  have e50 : val_main_v50 (F := Ideal) x1 x4 x5 (ix2 R j)
      = scaleOf (val_main_v16 (F := Ideal) x1 x4 (ix1 R)) (val_main_v19 (F := Ideal) x1 x5 (ix1 R)) := by
    rw [val_main_v50_apply, val_main_v46_apply, show idx_main_v46 (idx_main_v50 (ix2 R j)) = ix1 R from bcast_idx R j, v29_eq]
  have e43 : val_main_v43 (F := Ideal) x1 x4 x5 (ix2 R j)
      = zpOf (val_main_v16 (F := Ideal) x1 x4 (ix1 R)) (val_main_v19 (F := Ideal) x1 x5 (ix1 R)) := by
    rw [val_main_v43_apply, val_main_v42_apply, show idx_main_v42 (idx_main_v43 (ix2 R j)) = ix1 R from bcast_idx R j, v34_eq]
  have e48 : val_main_v48 (F := Ideal) x1 x4 x5 (ix2 R j)
      = zpOf (val_main_v16 (F := Ideal) x1 x4 (ix1 R)) (val_main_v19 (F := Ideal) x1 x5 (ix1 R)) := by
    rw [val_main_v48_apply, val_main_v47_apply, show idx_main_v47 (idx_main_v48 (ix2 R j)) = ix1 R from bcast_idx R j, v34_eq]
  rw [deqRef_eq, val_main_v51_apply, e50, val_main_v49_apply, e48, val_main_v45_apply, val_main_call6_v4_apply,
    val_main_call6_v3_apply, val_main_cst_15_apply, val_main_call6_v2_apply, val_main_call6_v1_apply,
    val_main_call6_v0_apply, val_main_cst_14_apply, val_main_v44_apply, e43, val_main_v41_apply, val_main_v40_apply,
    val_main_v39_apply, val_main_v38_apply, val_main_v37_apply, e36]
  rfl

/-! ### The least and the greatest entry of a group -/

/-- The flat group index with column `k` put back is entry (R, k) of the [131072, 128] arrangement. -/
private theorem lift_group (h : S131072x128.Reduces [1] S131072) (R : Fin 131072)
    (k : Fin (S131072x128.size 1)) : h.lift (ix1 R) k = ix2 R (⟨k.val, k.isLt⟩ : Fin 128) := by
  funext c; apply Fin.ext
  fin_cases c <;> rfl

/-- Entry j of group 16 r + g of the [131072, 128] arrangement is entry (r, 128 g + j) of the matrix. -/
private theorem idx_v6_group (r : Fin 8192) (g : Fin 16) (j : Fin 128) :
    idx_main_v6 (ix2 (gflat r g) j) = ix2 r (gcol g j) := by
  funext a; apply Fin.ext
  match a with
  | ⟨0, _⟩ => show ((16 * r.val + g.val) * 128 + j.val) / 2048 = r.val; omega
  | ⟨1, _⟩ => show ((16 * r.val + g.val) * 128 + j.val) % 2048 = 128 * g.val + j.val; omega

/-- The reference's min-reduce over a group is the group's least entry. -/
private theorem v8_eq (x1 : (⟨S8192x2048, .f32⟩ : BufTy).Contents (Elt Ideal)) (r : Fin 8192) (g : Fin 16) :
    val_main_v8 (F := Ideal) x1 (ix1 (gflat r g)) = grpMin x1 r g := by
  have h : S131072x128.Reduces [1] S131072 := by decide
  unfold val_main_v8
  refine (Host.reduce_eq_fold_single (FloatOps.minimumf (F := Ideal) (φ := .f32)) (val_main_v6 (F := Ideal) x1)
    (val_main_cst_3 (F := Ideal)) Gen.reducesTo_S131072x128_S131072_d1 h Gen.h_S_ (ix1 (gflat r g))).trans ?_
  unfold grpMin
  have hf : (val_main_v6 (F := Ideal) x1 ∘ h.lift (ix1 (gflat r g))) = fun j : Fin 128 => x1 (ix2 r (gcol g j)) :=
    funext fun k => by
      show val_main_v6 (F := Ideal) x1 (h.lift (ix1 (gflat r g)) k) = _
      rw [lift_group, val_main_v6_apply, idx_v6_group]
  exact congrArg (fun f => Finset.fold min (lit 0x7F800000#32) f (Finset.univ : Finset (Fin 128))) hf

/-- The reference's max-reduce over a group is the group's greatest entry. -/
private theorem v11_eq (x1 : (⟨S8192x2048, .f32⟩ : BufTy).Contents (Elt Ideal)) (r : Fin 8192) (g : Fin 16) :
    val_main_v11 (F := Ideal) x1 (ix1 (gflat r g)) = grpMax x1 r g := by
  have h : S131072x128.Reduces [1] S131072 := by decide
  unfold val_main_v11
  refine (Host.reduce_eq_fold_single (FloatOps.maximumf (F := Ideal) (φ := .f32)) (val_main_v6 (F := Ideal) x1)
    (val_main_cst_5 (F := Ideal)) Gen.reducesTo_S131072x128_S131072_d1 h Gen.h_S_ (ix1 (gflat r g))).trans ?_
  unfold grpMax
  have hf : (val_main_v6 (F := Ideal) x1 ∘ h.lift (ix1 (gflat r g))) = fun j : Fin 128 => x1 (ix2 r (gcol g j)) :=
    funext fun k => by
      show val_main_v6 (F := Ideal) x1 (h.lift (ix1 (gflat r g)) k) = _
      rw [lift_group, val_main_v6_apply, idx_v6_group]
  exact congrArg (fun f => Finset.fold max (lit 0xFF800000#32) f (Finset.univ : Finset (Fin 128))) hf

/-! ### Back to the matrix, and the layer -/

/-- Entry (n, k) of the reference's quantised matrix is the specification's. -/
private theorem v52_eq (x1 x3 : (⟨S8192x2048, .f32⟩ : BufTy).Contents (Elt Ideal))
    (x4 x5 : (⟨S131072, .f32⟩ : BufTy).Contents (Elt Ideal)) (n : Fin 8192) (k : Fin 2048) :
    val_main_v52 (F := Ideal) x1 x3 x4 x5 (ix2 n k) = wqRef x1 x3 x4 x5 (ix2 n k) := by
  have hk : k.val % 128 < 128 := Nat.mod_lt _ (by decide)
  have eidx : idx_main_v52 (ix2 n k) = ix2 (gflat n (gof k)) (⟨k.val % 128, hk⟩ : Fin 128) := by
    funext a; apply Fin.ext
    match a with
    | ⟨0, _⟩ => show (n.val * 2048 + k.val) / 128 = 16 * n.val + k.val / 128; omega
    | ⟨1, _⟩ => show (n.val * 2048 + k.val) % 128 = k.val % 128; omega
  have ecol : gcol (gof k) (⟨k.val % 128, hk⟩ : Fin 128) = k :=
    Fin.ext (by show 128 * (k.val / 128) + k.val % 128 = k.val; omega)
  have e7 : idx_main_v7 (ix2 (gflat n (gof k)) (⟨k.val % 128, hk⟩ : Fin 128)) = ix2 n (gcol (gof k) ⟨k.val % 128, hk⟩) :=
    idx_v6_group n (gof k) ⟨k.val % 128, hk⟩
  rw [val_main_v52_apply, eidx, v51_eq, val_main_v6_apply, val_main_v7_apply, idx_v6_group, e7, ecol, v16_eq, v19_eq,
    v8_eq, v11_eq]
  rfl

/-- The reference's last stage is the layer's output over the reference's quantised weights. -/
theorem ref_eq (x0 : (⟨S2x2048x2048, .f32⟩ : BufTy).Contents (Elt Ideal)) (x1 : (⟨S8192x2048, .f32⟩ : BufTy).Contents (Elt Ideal))
    (x2 : (⟨S8192, .f32⟩ : BufTy).Contents (Elt Ideal)) (x3 : (⟨S8192x2048, .f32⟩ : BufTy).Contents (Elt Ideal))
    (x4 x5 : (⟨S131072, .f32⟩ : BufTy).Contents (Elt Ideal)) :
    (val_main_v59 (F := Ideal) x0 x1 x2 x3 x4 x5 : Cert.Quant.SO.Idx → EReal)
      = Cert.Quant.outRef x0 x2 (Cert.Quant.wqRef x1 x3 x4 x5) := by
  funext i
  obtain ⟨b, s, n, rfl⟩ : ∃ (b : Fin 2) (s : Fin 2048) (n : Fin 8192), i = ix3 b s n := ⟨i 0, i 1, i 2, eq_ix3 i⟩
  have hb : idx_main_v56 (idx_main_v57 (idx_main_v59 (ix3 b s n))) = ix1 n := by
    funext a; apply Fin.ext
    match a with
    | ⟨0, _⟩ => show ((b.val * 2048 + s.val) * 8192 + n.val) % 8192 = n.val; omega
  have hl : ∀ k : Fin 2048, idx_main_v53 (lidx_main_v55 (idx_main_v59 (ix3 b s n)) k) = ix3 b s k := by
    intro k; funext a; apply Fin.ext
    match a with
    | ⟨0, _⟩ => show (((b.val * 2048 + s.val) * 8192 + n.val) / 8192 * 2048 + k.val) / 4194304 = b.val; omega
    | ⟨1, _⟩ => show (((b.val * 2048 + s.val) * 8192 + n.val) / 8192 * 2048 + k.val) / 2048 % 2048 = s.val; omega
    | ⟨2, _⟩ => show (((b.val * 2048 + s.val) * 8192 + n.val) / 8192 * 2048 + k.val) % 2048 = k.val; omega
  have hr : ∀ k : Fin 2048, idx_main_v54 (ridx_main_v55 (idx_main_v59 (ix3 b s n)) k) = ix2 n k := by
    intro k; funext a; apply Fin.ext
    match a with
    | ⟨0, _⟩ => show ((b.val * 2048 + s.val) * 8192 + n.val) % 8192 = n.val; omega
    | ⟨1, _⟩ => rfl
  have hs : ∀ k : Fin 2048,
      val_main_v53 (F := Ideal) x0 (lidx_main_v55 (idx_main_v59 (ix3 b s n)) k)
          * val_main_v54 (F := Ideal) x1 x3 x4 x5 (ridx_main_v55 (idx_main_v59 (ix3 b s n)) k)
        = x0 (ix3 b s k) * wqRef x1 x3 x4 x5 (ix2 n k) := by
    intro k
    rw [val_main_v53_apply, val_main_v54_apply, hl, hr, v52_eq]
  rw [val_main_v59_apply, val_main_v58_apply, val_main_v57_apply, val_main_v56_apply, val_main_v55_apply, hb,
    Finset.sum_congr rfl (fun k _ => hs k)]
  rfl

end Cert.Quant.RefValue

end
-- ==== Proof.Algebra.lean ====
/-
  On real arguments the reference's spelling of a quantised entry is the kernel's.
-/
import proofs.«102161_j10024453669436_1_alg».proof.Proof.Spec

noncomputable section

open scoped BigOperators

namespace Cert.Quant

open Idealize.ShloMosaic Idealize.ShloMosaic.ValueIdx

/-! ### The constants -/

private theorem lit_zero : lit 0x00000000#32 = 0 := by simp [Ideal.ofBits, Ideal.ieee]
private theorem lit_negone : lit 0xBF800000#32 = ((-1 : ℝ) : EReal) := by
  simp [Ideal.ofBits, Ideal.ieee, -EReal.coe_mul]; norm_num
private theorem lit_one : lit 0x3F800000#32 = ((1 : ℝ) : EReal) := by
  simp [Ideal.ofBits, Ideal.ieee, -EReal.coe_mul]; norm_num
private theorem lit_fifteen : lit 0x41700000#32 = ((15 : ℝ) : EReal) := by
  simp [Ideal.ofBits, Ideal.ieee, -EReal.coe_mul]; norm_num
private theorem lit_top : lit 0x7F800000#32 = ⊤ := by simp [Ideal.ofBits, Ideal.ieee]
private theorem lit_bot : lit 0xFF800000#32 = ⊥ := by simp [Ideal.ofBits, Ideal.ieee]

/-! ### Real arithmetic inside the extended reals -/

private theorem coe_min' (a b : ℝ) : min (a : EReal) (b : EReal) = ((min a b : ℝ) : EReal) :=
  (EReal.coe_strictMono.monotone.map_min).symm
private theorem coe_max' (a b : ℝ) : max (a : EReal) (b : EReal) = ((max a b : ℝ) : EReal) :=
  (EReal.coe_strictMono.monotone.map_max).symm

/-- Around a real `y` the straight-through form `y + (z - y)` is `z`, at every extended real `z`. -/
private theorem ste_real (r : ℝ) (z : EReal) : ste (r : EReal) z = z := by
  induction z using EReal.rec with
  | bot => simp [ste]
  | top => simp [ste]
  | coe x => simp only [ste]; rw [← EReal.coe_sub, ← EReal.coe_add]; congr 1; ring

/-- The quotient of two reals, the divisor not zero, is the real quotient. -/
private theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The clip of a real scale parameter to [-1, 0] is real. -/
private theorem clip_coe (p : ℝ) :
    min (lit 0x00000000#32) (max (lit 0xBF800000#32) (p : EReal)) = ((min 0 (max (-1) p) : ℝ) : EReal) := by
  rw [lit_zero, lit_negone, coe_max', ← EReal.coe_zero, coe_min']

/-- The lower end of the range is a real that is at most zero. -/
private theorem wminRaw_coe (mn lo : ℝ) : ∃ a : ℝ, a ≤ 0 ∧ wminRaw (mn : EReal) (lo : EReal) = (a : EReal) := by
  refine ⟨min lo 0 * (min 0 (max (-1) mn) + 1), ?_, ?_⟩
  · have h1 : min lo 0 ≤ 0 := min_le_right _ _
    have h2 : (0 : ℝ) ≤ min 0 (max (-1) mn) + 1 := by
      have : (-1 : ℝ) ≤ min 0 (max (-1) mn) := le_min (by norm_num) (le_max_left _ _)
      linarith
    exact mul_nonpos_of_nonpos_of_nonneg h1 h2
  · unfold wminRaw
    rw [clip_coe, lit_one, lit_zero, ← EReal.coe_zero, coe_min', ← EReal.coe_add, ← EReal.coe_mul]

/-- The upper end of the range is a real that is at least zero. -/
private theorem wmaxRaw_coe (mx hi : ℝ) : ∃ b : ℝ, 0 ≤ b ∧ wmaxRaw (mx : EReal) (hi : EReal) = (b : EReal) := by
  refine ⟨max hi 0 * (min 0 (max (-1) mx) + 1), ?_, ?_⟩
  · have h1 : (0 : ℝ) ≤ max hi 0 := le_max_right _ _
    have h2 : (0 : ℝ) ≤ min 0 (max (-1) mx) + 1 := by
      have : (-1 : ℝ) ≤ min 0 (max (-1) mx) := le_min (by norm_num) (le_max_left _ _)
      linarith
    exact mul_nonneg h1 h2
  · unfold wmaxRaw
    rw [clip_coe, lit_one, lit_zero, ← EReal.coe_zero, coe_max', ← EReal.coe_add, ← EReal.coe_mul]

/-- After the degenerate replacement the two ends are reals, the lower strictly below the upper. -/
private theorem ends_real (a b : ℝ) (ha : a ≤ 0) (hb : 0 ≤ b) :
    ∃ p q : ℝ, p < q ∧ Scalar.select (degen (a : EReal) (b : EReal)) (lit 0xBF800000#32) (a : EReal) = (p : EReal)
      ∧ Scalar.select (degen (a : EReal) (b : EReal)) (lit 0x3F800000#32) (b : EReal) = (q : EReal) := by
  by_cases h : degen (a : EReal) (b : EReal) = 1
  · refine ⟨-1, 1, by norm_num, ?_, ?_⟩
    · rw [Scalar.select, if_pos h, lit_negone]
    · rw [Scalar.select, if_pos h, lit_one]
  · refine ⟨a, b, ?_, ?_, ?_⟩
    · rcases lt_or_eq_of_le (ha.trans hb) with hlt | heq
      · exact hlt
      · exfalso; apply h
        have ha0 : a = 0 := le_antisymm ha (heq ▸ hb)
        have hb0 : b = 0 := heq ▸ ha0
        subst ha0; subst hb0
        simp [degen, Ideal.cmp, IntOp.andi, lit_zero]
    · rw [Scalar.select, if_neg h]
    · rw [Scalar.select, if_neg h]

/-- On real entries and real ends, the lower at most zero and the upper at least zero, the two spellings of the
    dequantised entry agree: the scale is a positive real, so every quotient is real and each straight-through form
    collapses. -/
private theorem deqRef_eq_deq (w v a b : ℝ) (ha : a ≤ 0) (hb : 0 ≤ b) :
    deqRef (w : EReal) (v : EReal) (a : EReal) (b : EReal) = deq (w : EReal) (v : EReal) (a : EReal) (b : EReal) := by
  obtain ⟨p, q, hpq, hp, hq⟩ := ends_real a b ha hb
  have hs0 : (q - p) / 15 ≠ 0 := by
    have : 0 < (q - p) / 15 := div_pos (by linarith) (by norm_num)
    exact this.ne'
  have hs : Ideal.div ((q : EReal) - (p : EReal)) (lit 0x41700000#32) = (((q - p) / 15 : ℝ) : EReal) := by
    rw [lit_fifteen, ← EReal.coe_sub, div_coe _ _ (by norm_num)]
  unfold deqRef deq
  simp only [hp, hq, hs]
  rw [lit_zero, zero_sub, ← EReal.coe_neg, div_coe _ _ hs0, div_coe _ _ hs0, ← EReal.coe_add, ste_real, ste_real]

/-- On real arguments (the two group extremes real as well) the reference's entry is the kernel's. -/
theorem cellRef_eq_cell {w v mn mx lo hi : EReal} (hw : ∃ r : ℝ, w = (r : EReal)) (hv : ∃ r : ℝ, v = (r : EReal))
    (hmn : ∃ r : ℝ, mn = (r : EReal)) (hmx : ∃ r : ℝ, mx = (r : EReal)) (hlo : ∃ r : ℝ, lo = (r : EReal))
    (hhi : ∃ r : ℝ, hi = (r : EReal)) : cellRef w v mn mx lo hi = cell w v mn mx lo hi := by
  obtain ⟨w, rfl⟩ := hw
  obtain ⟨v, rfl⟩ := hv
  obtain ⟨mn, rfl⟩ := hmn
  obtain ⟨mx, rfl⟩ := hmx
  obtain ⟨lo, rfl⟩ := hlo
  obtain ⟨hi, rfl⟩ := hhi
  obtain ⟨a, ha, hA⟩ := wminRaw_coe mn lo
  obtain ⟨b, hb, hB⟩ := wmaxRaw_coe mx hi
  have href : cellRef (w : EReal) v mn mx lo hi = deqRef (w : EReal) v (wminRaw mn lo) (wmaxRaw mx hi) := by
    unfold cellRef wminRaw wmaxRaw
    rw [clipSte, ste_real, clipSte, ste_real]
  rw [href, cell, hA, hB]
  exact deqRef_eq_deq w v a b ha hb

/-- The fold of `min` from +infinity over a nonempty set of reals is real. -/
private theorem fold_min_real {ι : Type} (s : Finset ι) (hs : s.Nonempty) (f : ι → EReal)
    (hf : ∀ j, ∃ x : ℝ, f j = (x : EReal)) : ∃ x : ℝ, s.fold min ⊤ f = (x : EReal) := by
  induction hs using Finset.Nonempty.cons_induction with
  | singleton a =>
    obtain ⟨x, hx⟩ := hf a
    exact ⟨x, by rw [Finset.fold_singleton, min_top_right, hx]⟩
  | cons a s h hs ih =>
    obtain ⟨x, hx⟩ := hf a
    obtain ⟨y, hy⟩ := ih
    exact ⟨min x y, by rw [Finset.fold_cons, hx, hy, coe_min']⟩

/-- The fold of `max` from -infinity over a nonempty set of reals is real. -/
private theorem fold_max_real {ι : Type} (s : Finset ι) (hs : s.Nonempty) (f : ι → EReal)
    (hf : ∀ j, ∃ x : ℝ, f j = (x : EReal)) : ∃ x : ℝ, s.fold max ⊥ f = (x : EReal) := by
  induction hs using Finset.Nonempty.cons_induction with
  | singleton a =>
    obtain ⟨x, hx⟩ := hf a
    exact ⟨x, by rw [Finset.fold_singleton, max_bot_right, hx]⟩
  | cons a s h hs ih =>
    obtain ⟨x, hx⟩ := hf a
    obtain ⟨y, hy⟩ := ih
    exact ⟨max x y, by rw [Finset.fold_cons, hx, hy, coe_max']⟩

/-- A group's least entry is real when every entry of the matrix is. -/
theorem grpMin_real {W : SW.Idx → EReal} (hW : AllReal W) (r : Fin 8192) (g : Fin 16) : ∃ x : ℝ, grpMin W r g = (x : EReal) := by
  unfold grpMin
  rw [lit_top]
  exact fold_min_real _ ⟨⟨0, by norm_num⟩, Finset.mem_univ _⟩ _ fun j => hW _

/-- A group's greatest entry is real when every entry of the matrix is. -/
theorem grpMax_real {W : SW.Idx → EReal} (hW : AllReal W) (r : Fin 8192) (g : Fin 16) : ∃ x : ℝ, grpMax W r g = (x : EReal) := by
  unfold grpMax
  rw [lit_bot]
  exact fold_max_real _ ⟨⟨0, by norm_num⟩, Finset.mem_univ _⟩ _ fun j => hW _

/-- The two quantised matrices agree on real inputs. -/
theorem wqRef_eq_wq {W V : SW.Idx → EReal} {MN MX : SG.Idx → EReal} (hW : AllReal W) (hV : AllReal V)
    (hMN : AllReal MN) (hMX : AllReal MX) : wqRef W V MN MX = wq W V MN MX := by
  funext i
  unfold wqRef wq
  exact cellRef_eq_cell (hW i) (hV i) (hMN _) (hMX _) (grpMin_real hW _ _) (grpMax_real hW _ _)

/-- The two outputs agree on real weights, offsets and scale parameters (addition commutes on the extended reals). -/
theorem outRef_eq_out (X : SX.Idx → EReal) (Bv : SB.Idx → EReal) {W V : SW.Idx → EReal} {MN MX : SG.Idx → EReal}
    (hW : AllReal W) (hV : AllReal V) (hMN : AllReal MN) (hMX : AllReal MX) :
    outRef X Bv (wqRef W V MN MX) = out X Bv (wq W V MN MX) := by
  funext i
  unfold outRef out
  rw [wqRef_eq_wq hW hV hMN hMX, add_comm]

end Cert.Quant

end
-- ==== Proof.Finite.lean ====
/-
  The precondition read: every entry of the weight, offset and scale-parameter arrays is a real number.
-/
import proofs.«102161_j10024453669436_1_alg».proof.Pre_finite_inputs
import proofs.«102161_j10024453669436_1_alg».proof.Proof.Gen.Pre_finite_inputs
import proofs.«102161_j10024453669436_1_alg».proof.Proof.Spec
import Idealize.ShloMosaic.Lib.ReduceAll
import Idealize.ShloMosaic.Lib.ValueIdx

noncomputable section

namespace Cert.Quant.Finite

open Idealize.ShloMosaic Idealize.SL.Sem Idealize.ShloMosaic.ValueIdx

/-- The pattern of +infinity denotes the top element. -/
private theorem top_eq : Ideal.ofBits .f32 0x7F800000#32 = (⊤ : EReal) := by
  simp [Ideal.ofBits, Ideal.ieee]

/-- An extended real whose absolute value lies strictly below +infinity is a real number. -/
private theorem real_of_abs_lt (x : EReal)
    (h : Ideal.cmp .olt (max x (-x)) (Ideal.ofBits .f32 0x7F800000#32) = 1#1) : ∃ r : ℝ, x = (r : EReal) := by
  rw [top_eq] at h
  induction x using EReal.rec with
  | bot => simp [Ideal.cmp] at h
  | coe r => exact ⟨r, rfl⟩
  | top => simp [Ideal.cmp] at h

/-- The printed all-entries test of one array, read back at an entry. -/
private theorem allReal_of_reduce {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a) (broadcastInDim s ![] hb (constant Cert.Pre_finite_inputs.S_ .f32 0x7F800000#32)))
          init hr hu j = 1#1) :
    ∀ i, ∃ r : ℝ, a i = (r : EReal) := by
  intro i
  -- the rank-0 shape has exactly one index
  haveI : Subsingleton Cert.Pre_finite_inputs.S_.Idx := ⟨fun a b => funext fun d => d.elim0⟩
  have h1 := Host.reduce_andi_all _ init hr hu j e i
  exact real_of_abs_lt (a i) h1

/-- Under the printed finiteness predicate the four arrays the quantisation reads hold real numbers only. -/
theorem real_of_fn [Cert.Pre_finite_inputs.Facts] (a0 : FVec Ideal Cert.Pre_finite_inputs.S2x2048x2048 .f32)
    (a1 : FVec Ideal Cert.Pre_finite_inputs.S8192x2048 .f32) (a2 : FVec Ideal Cert.Pre_finite_inputs.S8192 .f32)
    (a3 : FVec Ideal Cert.Pre_finite_inputs.S8192x2048 .f32) (a4 a5 : FVec Ideal Cert.Pre_finite_inputs.S131072 .f32)
    (h : Cert.Pre_finite_inputs.fn (F := Ideal) a0 a1 a2 a3 a4 a5 = fun _ => 1#1) :
    Cert.Quant.AllReal (a1 : Cert.Quant.SW.Idx → EReal) ∧ Cert.Quant.AllReal (a3 : Cert.Quant.SW.Idx → EReal)
      ∧ Cert.Quant.AllReal (a4 : Cert.Quant.SG.Idx → EReal) ∧ Cert.Quant.AllReal (a5 : Cert.Quant.SG.Idx → EReal) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, _⟩ := IntOp.andi_eq_one.1 h0
  obtain ⟨_, e1⟩ := IntOp.andi_eq_one.1 h0
  exact ⟨allReal_of_reduce a1 _ _ _ _ _ e1, allReal_of_reduce a3 _ _ _ _ _ e3,
    allReal_of_reduce a4 _ _ _ _ _ e4, allReal_of_reduce a5 _ _ _ _ _ e5⟩

end Cert.Quant.Finite

end
-- ==== Proof.lean ====
/-
  A groupwise 4-bit fake quantisation of a weight matrix followed by a linear layer, in two kernels, against its
  array-level reference, over the extended reals.

  Both programs compute  out[b, s, n] = sum_k x[b, s, k] * wq[n, k] + bias[n],  where wq is the weight matrix
  quantised group by group (128 consecutive columns of a row share a scale and a zero point taken from the group's
  extremes and two clipped scale parameters). The kernel program quantises 512 rows per grid point, sixteen groups at a
  time, and then multiplies tile by tile; the reference reshapes the matrix to one group per row. The reference spells
  its clip and its two roundings in the straight-through form  y + (f(y) - y),  which is f(y) exactly when y is a real
  number: this is where the finiteness of the inputs is used (and, through it, that a group's scale is a positive real).
  The two sums differ only in the order of the bias, and addition commutes on the extended reals.

  Spec: the entry-level functions. QuantPay / QuantValue: the quantising kernel's array. MatmulValue: the product
  kernel's array. KernelValue: the kernel program's result from the launch arrays. RefValue: the reference's result.
  Algebra: the two spellings agree on real inputs. Finite: the precondition gives real inputs.
-/
import proofs.«102161_j10024453669436_1_alg».proof.Defs
import proofs.«102161_j10024453669436_1_alg».proof.Proof.Gen.Kernel
import proofs.«102161_j10024453669436_1_alg».proof.Proof.Gen.Kernel.Frame
import proofs.«102161_j10024453669436_1_alg».proof.Proof.Gen.KernelIdeal
import proofs.«102161_j10024453669436_1_alg».proof.Proof.Gen.KernelIdeal.Frame
import proofs.«102161_j10024453669436_1_alg».proof.Proof.Gen.ReferenceIdeal
import proofs.«102161_j10024453669436_1_alg».proof.Proof.Gen.ReferenceIdeal.Run
import proofs.«102161_j10024453669436_1_alg».proof.Proof.Gen.ReferenceIdeal.Read
import proofs.«102161_j10024453669436_1_alg».proof.Proof.Gen.Pre_finite_inputs
import proofs.«102161_j10024453669436_1_alg».proof.Proof.KernelRun
import proofs.«102161_j10024453669436_1_alg».proof.Proof.KernelValue
import proofs.«102161_j10024453669436_1_alg».proof.Proof.RefValue
import proofs.«102161_j10024453669436_1_alg».proof.Proof.Algebra
import proofs.«102161_j10024453669436_1_alg».proof.Proof.Finite
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts]
  [hPre : Cert.Pre_finite_inputs.Facts]

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's output over the quantised weights: the kernel program by its two regions'
    arrays, the reference by its stages, the two spellings of an entry equal because the inputs are real. -/
theorem algebraic : Cert.algebraic_KernelIdeal_ReferenceIdeal := by
  intro m ρ m' ρ' hpre hagree
  refine ⟨fun c => Cert.Quant.out (Cert.KernelIdeal.KernelValue.aX m c) (Cert.KernelIdeal.KernelValue.aB m c)
    (Cert.Quant.wq (Cert.KernelIdeal.KernelValue.aW m c) (Cert.KernelIdeal.KernelValue.aV m c)
      (Cert.KernelIdeal.KernelValue.aMn m c) (Cert.KernelIdeal.KernelValue.aMx m c)), ?_, ?_⟩
  · exact (θ_run Cert.KernelIdeal.defs _ _).mono
      (fun r h c => ⟨(h c).1.trans (Cert.KernelIdeal.KernelValue.result_eq m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨hW, hV, hMN, hMX⟩ := Cert.Quant.Finite.real_of_fn _ _ _ _ _ _ (hpre c)
    rw [Cert.ReferenceIdeal.Read.val_main_v59_eq, (hagree c).1, (hagree c).2.1, (hagree c).2.2.1, (hagree c).2.2.2.1,
      (hagree c).2.2.2.2.1, (hagree c).2.2.2.2.2]
    exact (Cert.Quant.RefValue.ref_eq _ _ _ _ _ _).trans (Cert.Quant.outRef_eq_out _ _ hW hV hMN hMX)

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
